-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000 : Shape := ⟨2, ![26, 100000]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S26x100000 : S_.BroadcastsInDim S26x100000 (![] : Fin 0 → Fin S26x100000.rank)
  reducesTo_S26x100000_S_d0_1 : S26x100000.ReducesTo [0, 1] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S429x400 : S_.BroadcastsInDim S429x400 (![] : Fin 0 → Fin S429x400.rank)
  reducesTo_S429x400_S_d0_1 : S429x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S401x1 : S_.BroadcastsInDim S401x1 (![] : Fin 0 → Fin S401x1.rank)
  reducesTo_S401x1_S_d0_1 : S401x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S400x400 .f32) (main_arg9 : FVec F S400 .f32) (main_arg10 : FVec F S401x1 .f32) (main_arg11 : FVec F S1 .f32) (main_v33 : IVec S_ 1) : IVec S_ 1 :=
  let main_v34 : FVec F S400x400 .f32 := Host.absf main_arg8
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400 .f32 := Host.absf main_arg9
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S401x1 .f32 := Host.absf main_arg10
  let main_cst_16 : FVec F S_ .f32 := constant S_ .f32 0x7F800000#32
  let main_v45 : FVec F S401x1 .f32 := broadcastInDim S401x1 ![] bcast_S_S401x1 main_cst_16
  let main_v46 : IVec S401x1 1 := cmpf .olt main_v44 main_v45
  let main_c_17 : IVec S_ 1 := constantI S_ 1 1#1
  let main_v47 : IVec S_ 1 := (fun x v => Host.reduce IntOp.andi x v reducesTo_S401x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S26x100000x16 .f32) (main_arg6 : FVec F S429x400 .f32) (main_arg7 : FVec F S400 .f32) (main_arg8 : FVec F S400x400 .f32) (main_arg9 : FVec F S400 .f32) (main_arg10 : FVec F S401x1 .f32) (main_arg11 : FVec F S1 .f32) (main_v13 : IVec S_ 1) (main_v16 : IVec S26x100000 1) : IVec S_ 1 :=
  let main_c_5 : IVec S_ 1 := constantI S_ 1 1#1
  let main_v17 : IVec S_ 1 := (fun x v => Host.reduce IntOp.andi x v reducesTo_S26x100000_S_d0_1 h_S_) main_v16 main_c_5
  let main_v18 : IVec S_ 1 := andi main_v13 main_v17
  let main_v19 : FVec F S26x100000x16 .f32 := Host.absf main_arg5
  let main_cst_6 : FVec F S_ .f32 := constant S_ .f32 0x7F800000#32
  let main_v20 : FVec F S26x100000x16 .f32 := broadcastInDim S26x100000x16 ![] bcast_S_S26x100000x16 main_cst_6
  let main_v21 : IVec S26x100000x16 1 := cmpf .olt main_v19 main_v20
  let main_c_7 : IVec S_ 1 := constantI S_ 1 1#1
  let main_v22 : IVec S_ 1 := (fun x v => Host.reduce IntOp.andi x v reducesTo_S26x100000x16_S_d0_1_2 h_S_) main_v21 main_c_7
  let main_v23 : IVec S_ 1 := andi main_v18 main_v22
  let main_v24 : FVec F S429x400 .f32 := Host.absf main_arg6
  let main_cst_8 : FVec F S_ .f32 := constant S_ .f32 0x7F800000#32
  let main_v25 : FVec F S429x400 .f32 := broadcastInDim S429x400 ![] bcast_S_S429x400 main_cst_8
  let main_v26 : IVec S429x400 1 := cmpf .olt main_v24 main_v25
  let main_c_9 : IVec S_ 1 := constantI S_ 1 1#1
  let main_v27 : IVec S_ 1 := (fun x v => Host.reduce IntOp.andi x v reducesTo_S429x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S16384x13 .f32) (main_arg1 : IVec S16384x26 32) (main_arg2 : FVec F S13x1 .f32) (main_arg3 : FVec F S1 .f32) (main_arg4 : FVec F S26x100000 .f32) (main_arg5 : FVec F S26x100000x16 .f32) (main_arg6 : FVec F S429x400 .f32) (main_arg7 : FVec F S400 .f32) (main_arg8 : FVec F S400x400 .f32) (main_arg9 : FVec F S400 .f32) (main_arg10 : FVec F S401x1 .f32) (main_arg11 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S13x1 .f32 := Host.absf main_arg2
  let main_cst_0 : FVec F S_ .f32 := constant S_ .f32 0x7F800000#32
  let main_v5 : FVec F S13x1 .f32 := broadcastInDim S13x1 ![] bcast_S_S13x1 main_cst_0
  let main_v6 : IVec S13x1 1 := cmpf .olt main_v4 main_v5
  let main_c_1 : IVec S_ 1 := constantI S_ 1 1#1
  let main_v7 : IVec S_ 1 := (fun x v => Host.reduce IntOp.andi x v reducesTo_S13x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S26x100000 .f32 := Host.absf main_arg4
  let main_cst_4 : FVec F S_ .f32 := constant S_ .f32 0x7F800000#32
  let main_v15 : FVec F S26x100000 .f32 := broadcastInDim S26x100000 ![] bcast_S_S26x100000 main_cst_4
  let main_v16 : IVec S26x100000 1 := cmpf .olt main_v14 main_v15
  fn_part1 (F := F) main_arg5 main_arg6 main_arg7 main_arg8 main_arg9 main_arg10 main_arg11 main_v13 main_v16
-- ==== Kernel.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000 : Shape := ⟨2, ![26, 100000]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384 : Shape := ⟨1, ![16384]⟩
abbrev S16384x1 : Shape := ⟨2, ![16384, 1]⟩
abbrev S16384x26x16 : Shape := ⟨3, ![16384, 26, 16]⟩
abbrev S16384x416 : Shape := ⟨2, ![16384, 416]⟩
abbrev S16x16 : Shape := ⟨2, ![16, 16]⟩
abbrev S1x16x1x16 : Shape := ⟨4, ![1, 16, 1, 16]⟩
abbrev S26x16x1x16 : Shape := ⟨4, ![26, 16, 1, 16]⟩
abbrev S416x16 : Shape := ⟨2, ![416, 16]⟩
abbrev S2048x13 : Shape := ⟨2, ![2048, 13]⟩
abbrev S2048x416 : Shape := ⟨2, ![2048, 416]⟩
abbrev S2048x1 : Shape := ⟨2, ![2048, 1]⟩
abbrev S2048x429 : Shape := ⟨2, ![2048, 429]⟩
abbrev S2048x400 : Shape := ⟨2, ![2048, 400]⟩
abbrev S1x400 : Shape := ⟨2, ![1, 400]⟩
abbrev S2048x16 : Shape := ⟨2, ![2048, 16]⟩
abbrev S2048 : Shape := ⟨1, ![2048]⟩
abbrev S1x1 : Shape := ⟨2, ![1, 1]⟩
abbrev S2048x401 : Shape := ⟨2, ![2048, 401]⟩

abbrev nBuf : Space → Nat
  | .hbm => 68
  | .vmem => 17
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S13x1, .f32⟩
  | .hbm, ⟨3, _⟩ => ⟨S1, .f32⟩
  | .hbm, ⟨4, _⟩ => ⟨S26x100000, .f32⟩
  | .hbm, ⟨5, _⟩ => ⟨S26x100000x16, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S401x1, .f32⟩
  | .hbm, ⟨11, _⟩ => ⟨S1, .f32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x1, .i32⟩
  | .hbm, ⟨31, _⟩ => ⟨S16384x26x2, .i32⟩
  | .hbm, ⟨32, _⟩ => ⟨S16384x26, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S1x26, .i32⟩
  | .hbm, ⟨37, _⟩ => ⟨S_, .i32⟩
  | .hbm, ⟨38, _⟩ => ⟨S1x26, .i32⟩
  | .hbm, ⟨39, _⟩ => ⟨S1x26, .i1⟩
  | .hbm, ⟨40, _⟩ => ⟨S_, .i32⟩
  | .hbm, ⟨41, _⟩ => ⟨S1x26, .i32⟩
  | .hbm, ⟨42, _⟩ => ⟨S1x26, .i32⟩
  | .hbm, ⟨43, _⟩ => ⟨S1x26, .i32⟩
  | .hbm, ⟨44, _⟩ => ⟨S_, .i32⟩
  | .hbm, ⟨45, _⟩ => ⟨S16384x26, .i32⟩
  | .hbm, ⟨46, _⟩ => ⟨S16384x26, .i1⟩
  | .hbm, ⟨47, _⟩ => ⟨S_, .i32⟩
  | .hbm, ⟨48, _⟩ => ⟨S16384x26, .i32⟩
  | .hbm, ⟨49, _⟩ => ⟨S16384x26, .i32⟩
  | .hbm, ⟨50, _⟩ => ⟨S16384x26, .i32⟩
  | .hbm, ⟨51, _⟩ => ⟨S16384x26, .i32⟩
  | .hbm, ⟨52, _⟩ => ⟨S16384x26x1, .i32⟩
  | .hbm, ⟨53, _⟩ => ⟨S16384x26x1, .i32⟩
  | .hbm, ⟨54, _⟩ => ⟨S16384x26x2, .i32⟩
  | .hbm, ⟨55, _⟩ => ⟨S16384x26x16, .f32⟩
  | .hbm, ⟨56, _⟩ => ⟨S16384x416, .f32⟩
  | .hbm, ⟨57, _⟩ => ⟨S16x16, .i32⟩
  | .hbm, ⟨58, _⟩ => ⟨S16x16, .i32⟩
  | .hbm, ⟨59, _⟩ => ⟨S_, .i32⟩
  | .hbm, ⟨60, _⟩ => ⟨S16x16, .i32⟩
  | .hbm, ⟨61, _⟩ => ⟨S16x16, .i32⟩
  | .hbm, ⟨62, _⟩ => ⟨S16x16, .i1⟩
  | .hbm, ⟨63, _⟩ => ⟨S16x16, .f32⟩
  | .hbm, ⟨64, _⟩ => ⟨S1x16x1x16, .f32⟩
  | .hbm, ⟨65, _⟩ => ⟨S26x16x1x16, .f32⟩
  | .hbm, ⟨66, _⟩ => ⟨S416x16, .f32⟩
  | .hbm, ⟨67, _⟩ => ⟨S16384x1, .f32⟩
  | .local _ .vmem, ⟨0, _⟩ => ⟨S2048x13, .f32⟩
  | .local _ .vmem, ⟨1, _⟩ => ⟨S2048x13, .f32⟩
  | .local _ .vmem, ⟨2, _⟩ => ⟨S2048x416, .f32⟩
  | .local _ .vmem, ⟨3, _⟩ => ⟨S2048x416, .f32⟩
  | .local _ .vmem, ⟨4, _⟩ => ⟨S2048x1, .f32⟩
  | .local _ .vmem, ⟨5, _⟩ => ⟨S2048x1, .f32⟩
  | .local _ .vmem, ⟨6, _⟩ => ⟨S416x16, .f32⟩
  | .local _ .vmem, ⟨7, _⟩ => ⟨S13x1, .f32⟩
  | .local _ .vmem, ⟨8, _⟩ => ⟨S1, .f32⟩
  | .local _ .vmem, ⟨9, _⟩ => ⟨S429x400, .f32⟩
  | .local _ .vmem, ⟨10, _⟩ => ⟨S400, .f32⟩
  | .local _ .vmem, ⟨11, _⟩ => ⟨S400x400, .f32⟩
  | .local _ .vmem, ⟨12, _⟩ => ⟨S400, .f32⟩
  | .local _ .vmem, ⟨13, _⟩ => ⟨S401x1, .f32⟩
  | .local _ .vmem, ⟨14, _⟩ => ⟨S1, .f32⟩
  | .local _ .vmem, ⟨15, _⟩ => ⟨S2048x1, .f32⟩
  | .local _ .vmem, ⟨16, _⟩ => ⟨S2048x1, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S416x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S429x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S401x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26_S16384_d1 : S16384x26.ReducesTo [1] S16384
  h_S_ : 0 < S_.numel
  bcast_S16384_S16384x1_0 : S16384.BroadcastsInDim S16384x1 (![0] : Fin 1 → Fin S16384x1.rank)
  shapeCasts_S16384x26x16_S16384x416 : S16384x26x16.ShapeCasts S16384x416
  bcast_S_S16x16 : S_.BroadcastsInDim S16x16 (![] : Fin 0 → Fin S16x16.rank)
  shapeCasts_S16x16_S1x16x1x16 : S16x16.ShapeCasts S1x16x1x16
  bcast_S1x16x1x16_S26x16x1x16_0_1_2_3 : S1x16x1x16.BroadcastsInDim S26x16x1x16 (![0, 1, 2, 3] : Fin 4 → Fin S26x16x1x16.rank)
  shapeCasts_S26x16x1x16_S416x16 : S26x16x1x16.ShapeCasts S416x16
  inb_S2048x13_S2048x13_0_0 : ∀ a, (![0, 0] : Fin 2 → Nat) a + S2048x13.size a ≤ S2048x13.size a
  h_S2048x13 : 0 < S2048x13.numel
  inb_S2048x416_S2048x416_0_0 : ∀ a, (![0, 0] : Fin 2 → Nat) a + S2048x416.size a ≤ S2048x416.size a
  h_S2048x416 : 0 < S2048x416.numel
  shapeCasts_S2048x416_S2048x416 : S2048x416.ShapeCasts S2048x416
  concatenates_S2048x13_S2048x416_S2048x429_d1 : Shape.Concatenates [S2048x13, S2048x416] S2048x429 1
  bitsLt_bf16_f32 : FTy.bits .bf16 < FTy.bits .f32
  inb_S429x400_S429x400_0_0 : ∀ a, (![0, 0] : Fin 2 → Nat) a + S429x400.size a ≤ S429x400.size a
  h_S429x400 : 0 < S429x400.numel
  inb_S400_S400_0 : ∀ a, (![0] : Fin 1 → Nat) a + S400.size a ≤ S400.size a
  h_S400 : 0 < S400.numel
  shapeCasts_S400_S1x400 : S400.ShapeCasts S1x400
  broadcasts_S1x400_S2048x400 : S1x400.Broadcasts S2048x400
  inb_S400x400_S400x400_0_0 : ∀ a, (![0, 0] : Fin 2 → Nat) a + S400x400.size a ≤ S400x400.size a
  h_S400x400 : 0 < S400x400.numel
  inb_S416x16_S416x16_0_0 : ∀ a, (![0, 0] : Fin 2 → Nat) a + S416x16.size a ≤ S416x16.size a
  h_S416x16 : 0 < S416x16.numel
  shapeCasts_S416x16_S416x16 : S416x16.ShapeCasts S416x16
  reduces_S2048x16_S2048 : S2048x16.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S13x1_S13x1_0_0 : ∀ a, (![0, 0] : Fin 2 → Nat) a + S13x1.size a ≤ S13x1.size a
  h_S13x1 : 0 < S13x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  concatenates_S2048x1_S2048x400_S2048x401_d1 : Shape.Concatenates [S2048x1, S2048x400] S2048x401 1
  inb_S401x1_S401x1_0_0 : ∀ a, (![0, 0] : Fin 2 → Nat) a + S401x1.size a ≤ S401x1.size a
  h_S401x1 : 0 < S401x1.numel
  gather_S26x100000_S16384x26x2_S16384x26_n_01_n_n_01_2_11_wf : GatherDims.WF S26x100000 S16384x26x2 S16384x26 [] [0, 1] [] [0, 1] [] 2 ![1, 1]
  gather_S26x100000x16_S16384x26x2_S16384x26x16_2_01_n_n_01_2_1116_wf : GatherDims.WF S26x100000x16 S16384x26x2 S16384x26x16 [2] [0, 1] [] [0, 1] [] 2 ![1, 1, 16]
  dot_S2048x429_S429x400_S2048x400_1_0_0_1_n_n_wf : DotDims.WF S2048x429 S429x400 S2048x400 [1] [0] [0] [1] [] []
  dot_S2048x400_S400x400_S2048x400_1_0_0_1_n_n_wf : DotDims.WF S2048x400 S400x400 S2048x400 [1] [0] [0] [1] [] []
  dot_S2048x416_S416x16_S2048x16_1_0_0_1_n_n_wf : DotDims.WF S2048x416 S416x16 S2048x16 [1] [0] [0] [1] [] []
  dot_S2048x13_S13x1_S2048x1_1_0_0_1_n_n_wf : DotDims.WF S2048x13 S13x1 S2048x1 [1] [0] [0] [1] [] []
  dot_S2048x401_S401x1_S2048x1_1_0_0_1_n_n_wf : DotDims.WF S2048x401 S401x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x13.size a ≤ S16384x13.size a
  hwx0_0 : ∀ i : grid0.Coords, EltTy.bits .f32 = 32 ∨ (Rect.block (s := S16384x13) S2048x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x416.size a ≤ S16384x416.size a
  hwx0_1 : ∀ i : grid0.Coords, EltTy.bits .f32 = 32 ∨ (Rect.block (s := S16384x416) S2048x416.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S416x16.size a ≤ S416x16.size a
  hwx0_3 : ∀ i : grid0.Coords, EltTy.bits .f32 = 32 ∨ (Rect.block (s := S416x16) S416x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x1.size a ≤ S13x1.size a
  hwx0_4 : ∀ i : grid0.Coords, EltTy.bits .f32 = 32 ∨ (Rect.block (s := S13x1) S13x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S429x400.size a ≤ S429x400.size a
  hwx0_6 : ∀ i : grid0.Coords, EltTy.bits .f32 = 32 ∨ (Rect.block (s := S429x400) S429x400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400.size a ≤ S400.size a
  hwx0_7 : ∀ i : grid0.Coords, EltTy.bits .f32 = 32 ∨ (Rect.block (s := S400) S400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x400.size a ≤ S400x400.size a
  hwx0_8 : ∀ i : grid0.Coords, EltTy.bits .f32 = 32 ∨ (Rect.block (s := S400x400) S400x400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400.size a ≤ S400.size a
  hwx0_9 : ∀ i : grid0.Coords, EltTy.bits .f32 = 32 ∨ (Rect.block (s := S400) S400.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S401x1.size a ≤ S401x1.size a
  hwx0_10 : ∀ i : grid0.Coords, EltTy.bits .f32 = 32 ∨ (Rect.block (s := S401x1) S401x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S16384x1.size a
  hwx0_12 : ∀ i : grid0.Coords, EltTy.bits .f32 = 32 ∨ (Rect.block (s := S16384x1) S2048x1.size (cc0_transform_12 i) (hinb0_12 i)).WholeWords (EltTy.packing .f32)

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S2048x429_S429x400_S2048x400_1_0_0_1_n_n : DotDims S2048x429 S429x400 S2048x400 where
  lhsContracting := [1]
  rhsContracting := [0]
  lhsNonContracting := [0]
  rhsNonContracting := [1]
  lhsBatch := []
  rhsBatch := []
  wf := dot_S2048x429_S429x400_S2048x400_1_0_0_1_n_n_wf
def dot_S2048x400_S400x400_S2048x400_1_0_0_1_n_n : DotDims S2048x400 S400x400 S2048x400 where
  lhsContracting := [1]
  rhsContracting := [0]
  lhsNonContracting := [0]
  rhsNonContracting := [1]
  lhsBatch := []
  rhsBatch := []
  wf := dot_S2048x400_S400x400_S2048x400_1_0_0_1_n_n_wf
def dot_S2048x416_S416x16_S2048x16_1_0_0_1_n_n : DotDims S2048x416 S416x16 S2048x16 where
  lhsContracting := [1]
  rhsContracting := [0]
  lhsNonContracting := [0]
  rhsNonContracting := [1]
  lhsBatch := []
  rhsBatch := []
  wf := dot_S2048x416_S416x16_S2048x16_1_0_0_1_n_n_wf
def dot_S2048x13_S13x1_S2048x1_1_0_0_1_n_n : DotDims S2048x13 S13x1 S2048x1 where
  lhsContracting := [1]
  rhsContracting := [0]
  lhsNonContracting := [0]
  rhsNonContracting := [1]
  lhsBatch := []
  rhsBatch := []
  wf := dot_S2048x13_S13x1_S2048x1_1_0_0_1_n_n_wf
def dot_S2048x401_S401x1_S2048x1_1_0_0_1_n_n : DotDims S2048x401 S401x1 S2048x1 where
  lhsContracting := [1]
  rhsContracting := [0]
  lhsNonContracting := [0]
  rhsNonContracting := [1]
  lhsBatch := []
  rhsBatch := []
  wf := dot_S2048x401_S401x1_S2048x1_1_0_0_1_n_n_wf

abbrev win0_0 : Pipeline.Window sig grid0 :=
  Pipeline.Window.ofSpec (Memref.whole main_arg0) S2048x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2048x416.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S416x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S13x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S429x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S400x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S401x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v45) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000 : Shape := ⟨2, ![26, 100000]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x1 : Shape := ⟨2, ![16384, 1]⟩
abbrev S1x1 : Shape := ⟨2, ![1, 1]⟩
abbrev S16384 : Shape := ⟨1, ![16384]⟩
abbrev S16384x26x16 : Shape := ⟨3, ![16384, 26, 16]⟩
abbrev S16384x16 : Shape := ⟨2, ![16384, 16]⟩
abbrev S16384x416 : Shape := ⟨2, ![16384, 416]⟩
abbrev S16384x429 : Shape := ⟨2, ![16384, 429]⟩
abbrev S16384x400 : Shape := ⟨2, ![16384, 400]⟩
abbrev S1x400 : Shape := ⟨2, ![1, 400]⟩
abbrev S16384x401 : Shape := ⟨2, ![16384, 401]⟩

abbrev nBuf : Space → Nat
  | .hbm => 96
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S13x1, .f32⟩
  | .hbm, ⟨3, _⟩ => ⟨S1, .f32⟩
  | .hbm, ⟨4, _⟩ => ⟨S26x100000, .f32⟩
  | .hbm, ⟨5, _⟩ => ⟨S26x100000x16, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S401x1, .f32⟩
  | .hbm, ⟨11, _⟩ => ⟨S1, .f32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x1, .i32⟩
  | .hbm, ⟨31, _⟩ => ⟨S16384x26x2, .i32⟩
  | .hbm, ⟨32, _⟩ => ⟨S16384x26, .f32⟩
  | .hbm, ⟨33, _⟩ => ⟨S16384x1, .f32⟩
  | .hbm, ⟨34, _⟩ => ⟨S1x1, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1, .f32⟩
  | .hbm, ⟨41, _⟩ => ⟨S1x26, .i32⟩
  | .hbm, ⟨42, _⟩ => ⟨S_, .i32⟩
  | .hbm, ⟨43, _⟩ => ⟨S1x26, .i32⟩
  | .hbm, ⟨44, _⟩ => ⟨S1x26, .i1⟩
  | .hbm, ⟨45, _⟩ => ⟨S_, .i32⟩
  | .hbm, ⟨46, _⟩ => ⟨S1x26, .i32⟩
  | .hbm, ⟨47, _⟩ => ⟨S1x26, .i32⟩
  | .hbm, ⟨48, _⟩ => ⟨S1x26, .i32⟩
  | .hbm, ⟨49, _⟩ => ⟨S_, .i32⟩
  | .hbm, ⟨50, _⟩ => ⟨S16384x26, .i32⟩
  | .hbm, ⟨51, _⟩ => ⟨S16384x26, .i1⟩
  | .hbm, ⟨52, _⟩ => ⟨S_, .i32⟩
  | .hbm, ⟨53, _⟩ => ⟨S16384x26, .i32⟩
  | .hbm, ⟨54, _⟩ => ⟨S16384x26, .i32⟩
  | .hbm, ⟨55, _⟩ => ⟨S16384x26, .i32⟩
  | .hbm, ⟨56, _⟩ => ⟨S16384x26, .i32⟩
  | .hbm, ⟨57, _⟩ => ⟨S16384x26x1, .i32⟩
  | .hbm, ⟨58, _⟩ => ⟨S16384x26x1, .i32⟩
  | .hbm, ⟨59, _⟩ => ⟨S16384x26x2, .i32⟩
  | .hbm, ⟨60, _⟩ => ⟨S16384x26x16, .f32⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S16384x26x16, .f32⟩
  | .hbm, ⟨65, _⟩ => ⟨S_, .f32⟩
  | .hbm, ⟨66, _⟩ => ⟨S16384x16, .f32⟩
  | .hbm, ⟨67, _⟩ => ⟨S16384x16, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x416, .f32⟩
  | .hbm, ⟨76, _⟩ => ⟨S16384x429, .f32⟩
  | .hbm, ⟨77, _⟩ => ⟨S16384x400, .f32⟩
  | .hbm, ⟨78, _⟩ => ⟨S1x400, .f32⟩
  | .hbm, ⟨79, _⟩ => ⟨S16384x400, .f32⟩
  | .hbm, ⟨80, _⟩ => ⟨S16384x400, .f32⟩
  | .hbm, ⟨81, _⟩ => ⟨S_, .f32⟩
  | .hbm, ⟨82, _⟩ => ⟨S16384x400, .f32⟩
  | .hbm, ⟨83, _⟩ => ⟨S16384x400, .f32⟩
  | .hbm, ⟨84, _⟩ => ⟨S16384x400, .f32⟩
  | .hbm, ⟨85, _⟩ => ⟨S1x400, .f32⟩
  | .hbm, ⟨86, _⟩ => ⟨S16384x400, .f32⟩
  | .hbm, ⟨87, _⟩ => ⟨S16384x400, .f32⟩
  | .hbm, ⟨88, _⟩ => ⟨S_, .f32⟩
  | .hbm, ⟨89, _⟩ => ⟨S16384x400, .f32⟩
  | .hbm, ⟨90, _⟩ => ⟨S16384x400, .f32⟩
  | .hbm, ⟨91, _⟩ => ⟨S16384x401, .f32⟩
  | .hbm, ⟨92, _⟩ => ⟨S16384x1, .f32⟩
  | .hbm, ⟨93, _⟩ => ⟨S1x1, .f32⟩
  | .hbm, ⟨94, _⟩ => ⟨S16384x1, .f32⟩
  | .hbm, ⟨95, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call0_cst : Ref sig .tc := ⟨.hbm, 81, rfl⟩
abbrev main_call0_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call1_cst : Ref sig .tc := ⟨.hbm, 88, rfl⟩
abbrev main_call1_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  concatenates_S16384x13_S16384x416_S16384x429_d1 : Shape.Concatenates [S16384x13, S16384x416] S16384x429 1
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  concatenates_S16384x1_S16384x400_S16384x401_d1 : Shape.Concatenates [S16384x1, S16384x400] S16384x401 1
  gather_S26x100000_S16384x26x2_S16384x26_n_01_n_n_01_2_11_wf : GatherDims.WF S26x100000 S16384x26x2 S16384x26 [] [0, 1] [] [0, 1] [] 2 ![1, 1]
  dot_S16384x13_S13x1_S16384x1_1_0_0_1_n_n_wf : DotDims.WF S16384x13 S13x1 S16384x1 [1] [0] [0] [1] [] []
  gather_S26x100000x16_S16384x26x2_S16384x26x16_2_01_n_n_01_2_1116_wf : GatherDims.WF S26x100000x16 S16384x26x2 S16384x26x16 [2] [0, 1] [] [0, 1] [] 2 ![1, 1, 16]
  dot_S16384x429_S429x400_S16384x400_1_0_0_1_n_n_wf : DotDims.WF S16384x429 S429x400 S16384x400 [1] [0] [0] [1] [] []
  dot_S16384x400_S400x400_S16384x400_1_0_0_1_n_n_wf : DotDims.WF S16384x400 S400x400 S16384x400 [1] [0] [0] [1] [] []
  dot_S16384x401_S401x1_S16384x1_1_0_0_1_n_n_wf : DotDims.WF S16384x401 S401x1 S16384x1 [1] [0] [0] [1] [] []

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x429_S429x400_S16384x400_1_0_0_1_n_n : DotDims S16384x429 S429x400 S16384x400 where
  lhsContracting := [1]
  rhsContracting := [0]
  lhsNonContracting := [0]
  rhsNonContracting := [1]
  lhsBatch := []
  rhsBatch := []
  wf := dot_S16384x429_S429x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def dot_S16384x401_S401x1_S16384x1_1_0_0_1_n_n : DotDims S16384x401 S401x1 S16384x1 where
  lhsContracting := [1]
  rhsContracting := [0]
  lhsNonContracting := [0]
  rhsNonContracting := [1]
  lhsBatch := []
  rhsBatch := []
  wf := dot_S16384x401_S401x1_S16384x1_1_0_0_1_n_n_wf

class Facts : Prop extends Facts₀ where

variable [Facts]
-- ==== Proof.Spec.lean ====
/-
  The value both programs compute, one batch row at a time.

  A row carries thirteen continuous features `x`, twenty-six looked-up embedding vectors of sixteen numbers
  `e f d`, and the sum `s` of its twenty-six looked-up first-order weights. The model's answer for the row is

    out = Σ_k fused k · w_out[k] + b_out,     fused 0 = first + second,   fused (n+1) = hidden₂ n

  with  first  = Σ_k x k · w_c[k] + b_c + s,
        second = ½ · Σ_d ((Σ_f e f d)² − Σ_f (e f d)²)            (the factorization machine's pairwise term),
        hidden₁ = relu (feat · W₁ + b₁),  hidden₂ = relu (hidden₁ · W₂ + b₂),
        feat   = the 13 features followed by the 26·16 embedding numbers, row-major.

  Everything is over the extended reals: sums are `Finset` sums, relu is `max · 0`, and one half is the number the
  pattern 0x3F000000 denotes (never evaluated: both programs carry the same pattern).

  Also here: the one algebraic fact that separates the two programs. One of them takes the sum over the field axis
  `f` by multiplying the flattened row (length 416 = 26·16) with a 0/1 matrix whose entry (j, d) is one exactly when
  `j % 16 = d`. On the extended reals `a · 1 = a` and `a · 0 = 0` for every `a`, the infinities included, so that
  product is the field sum with no finiteness assumption (`sum_mul_selector`).
-/
import Idealize.ShloMosaic.PureOps.Ideal
import Idealize.ShloMosaic.PureOps.Ideal.Laws
import Idealize.ShloMosaic.Lib.ValueIdx

noncomputable section

namespace DeepFM

open Idealize.ShloMosaic Idealize.ShloMosaic.ValueIdx

/-- One half, as the f32 pattern both programs print. -/
def half : EReal := Ideal.ofBits .f32 0x3F000000#32

/-- Entry `k` of a row's network input: the continuous features, then the embeddings field by field. -/
def feat (x : Fin 13 → EReal) (e : Fin 26 → Fin 16 → EReal) (k : Fin 429) : EReal :=
  if h : k.val < 13 then x ⟨k.val, h⟩
  else e ⟨(k.val - 13) / 16, by have := k.isLt; omega⟩ ⟨(k.val - 13) % 16, Nat.mod_lt _ (by decide)⟩

/-- A dense layer with relu, at output unit `n`. -/
def layer {K N : Nat} (v : Fin K → EReal) (w : (⟨2, ![K, N]⟩ : Shape).Idx → EReal) (b : (⟨1, ![N]⟩ : Shape).Idx → EReal)
    (n : Fin N) : EReal :=
  max (∑ k : Fin K, v k * w (ix2 k n) + b (ix1 n)) 0

/-- The pairwise (second-order) term of a row. -/
def second (e : Fin 26 → Fin 16 → EReal) : EReal :=
  half * ∑ d : Fin 16, ((∑ f : Fin 26, e f d) * (∑ f : Fin 26, e f d) - ∑ f : Fin 26, e f d * e f d)

/-- The linear (first-order) term of a row. -/
def first (x : Fin 13 → EReal) (s : EReal) (wc : (⟨2, ![13, 1]⟩ : Shape).Idx → EReal) (bc : (⟨1, ![1]⟩ : Shape).Idx → EReal) : EReal :=
  (∑ k : Fin 13, x k * wc (ix2 k 0)) + bc (ix1 0) + s

/-- Entry `k` of the vector the output layer sees: the factorization machine's number, then the second hidden layer. -/
def fused (x : Fin 13 → EReal) (e : Fin 26 → Fin 16 → EReal) (s : EReal)
    (wc : (⟨2, ![13, 1]⟩ : Shape).Idx → EReal) (bc : (⟨1, ![1]⟩ : Shape).Idx → EReal)
    (w1 : (⟨2, ![429, 400]⟩ : Shape).Idx → EReal) (b1 : (⟨1, ![400]⟩ : Shape).Idx → EReal)
    (w2 : (⟨2, ![400, 400]⟩ : Shape).Idx → EReal) (b2 : (⟨1, ![400]⟩ : Shape).Idx → EReal) (k : Fin 401) : EReal :=
  if k.val < 1 then first x s wc bc + second e
  else layer (layer (feat x e) w1 b1) w2 b2 ⟨k.val - 1, by have := k.isLt; omega⟩

/-- The model's answer for one row. -/
def rowOut (x : Fin 13 → EReal) (e : Fin 26 → Fin 16 → EReal) (s : EReal)
    (wc : (⟨2, ![13, 1]⟩ : Shape).Idx → EReal) (bc : (⟨1, ![1]⟩ : Shape).Idx → EReal)
    (w1 : (⟨2, ![429, 400]⟩ : Shape).Idx → EReal) (b1 : (⟨1, ![400]⟩ : Shape).Idx → EReal)
    (w2 : (⟨2, ![400, 400]⟩ : Shape).Idx → EReal) (b2 : (⟨1, ![400]⟩ : Shape).Idx → EReal)
    (wo : (⟨2, ![401, 1]⟩ : Shape).Idx → EReal) (bo : (⟨1, ![1]⟩ : Shape).Idx → EReal) : EReal :=
  (∑ k : Fin 401, fused x e s wc bc w1 b1 w2 b2 k * wo (ix2 k 0)) + bo (ix1 0)

/-- The whole result array, from the batch arrays: `X` the continuous features, `E` the looked-up embeddings,
    `S` the summed first-order weights (a column). Row `i 0` of the result is that row's answer. -/
def G (X : (⟨2, ![16384, 13]⟩ : Shape).Idx → EReal) (E : (⟨3, ![16384, 26, 16]⟩ : Shape).Idx → EReal)
    (S : (⟨2, ![16384, 1]⟩ : Shape).Idx → EReal)
    (wc : (⟨2, ![13, 1]⟩ : Shape).Idx → EReal) (bc : (⟨1, ![1]⟩ : Shape).Idx → EReal)
    (w1 : (⟨2, ![429, 400]⟩ : Shape).Idx → EReal) (b1 : (⟨1, ![400]⟩ : Shape).Idx → EReal)
    (w2 : (⟨2, ![400, 400]⟩ : Shape).Idx → EReal) (b2 : (⟨1, ![400]⟩ : Shape).Idx → EReal)
    (wo : (⟨2, ![401, 1]⟩ : Shape).Idx → EReal) (bo : (⟨1, ![1]⟩ : Shape).Idx → EReal) :
    (⟨2, ![16384, 1]⟩ : Shape).Idx → EReal := fun i =>
  rowOut (fun k => X (ix2 ⟨(i 0).val, idx2_lt0 i⟩ k)) (fun f d => E (ix3 ⟨(i 0).val, idx2_lt0 i⟩ f d))
    (S (ix2 ⟨(i 0).val, idx2_lt0 i⟩ 0)) wc bc w1 b1 w2 b2 wo bo

/-- An index of a one-column array is its row with column zero. -/
theorem eq_col {n : Nat} (i : (⟨2, ![n, 1]⟩ : Shape).Idx) : i = ix2 ⟨(i 0).val, idx2_lt0 i⟩ (0 : Fin 1) := by
  funext a
  match a with
  | ⟨0, _⟩ => rfl
  | ⟨1, _⟩ => exact Fin.ext (by have := idx2_lt1 i; show (i 1).val = 0; omega)

/-- The field and the component of position `j` of a flattened row of 26·16 numbers. -/
def fieldOf (j : Fin 416) : Fin 26 := ⟨j.val / 16, by have := j.isLt; omega⟩
def compOf (j : Fin 416) : Fin 16 := ⟨j.val % 16, Nat.mod_lt _ (by decide)⟩

/-- Summing a flattened row against the 0/1 column `[j % 16 = d]` is the sum over the fields of component `d`:
    on the extended reals `a · 1 = a` and `a · 0 = 0` whatever `a` is. -/
theorem sum_mul_selector (e : Fin 26 → Fin 16 → EReal) (d : Fin 16) :
    ∑ j : Fin 416, e (fieldOf j) (compOf j) * (if (compOf j) = d then (1 : EReal) else 0) = ∑ f : Fin 26, e f d := by
  rw [← Equiv.sum_comp (finProdFinEquiv (m := 26) (n := 16)), Fintype.sum_prod_type]
  refine Finset.sum_congr rfl fun f _ => ?_
  have hf : ∀ c : Fin 16, fieldOf (finProdFinEquiv (f, c)) = f := fun c => Fin.ext (by
    show (c.val + 16 * f.val) / 16 = f.val
    have := c.isLt; omega)
  have hc : ∀ c : Fin 16, compOf (finProdFinEquiv (f, c)) = c := fun c => Fin.ext (by
    show (c.val + 16 * f.val) % 16 = c.val
    have := c.isLt; omega)
  simp only [hf, hc, mul_ite, mul_one, mul_zero, Finset.sum_ite_eq', Finset.mem_univ, if_true]

end DeepFM

end
-- ==== Proof.RefSide.lean ====
/-
  The reference program computes the row function of `Spec.lean`: its result array, read at row `b`, is
  `DeepFM.rowOut` of row `b` of the continuous features, of the looked-up embeddings and of the summed
  first-order weights, with the network's weights.

  The two table look-ups are left as they are (the arrays `val_main_v39`, the embeddings, and `val_main_v22`, the
  summed first-order weights as a column): the other program performs the very same look-ups, so nothing about them
  is needed. Everything after them is read one operation at a time: a matrix product as the sum over the
  contraction index, a sum over an axis as the initial zero plus the sum over that axis, a concatenation by the side
  of the joint its column falls on, the reshape of the embeddings [26,16] -> [416] by row-major arithmetic.
-/
import proofs.«407073_j10368051052905_3_alg».proof.Proof.Gen.ReferenceIdeal.Read
import proofs.«407073_j10368051052905_3_alg».proof.Proof.Spec
import Idealize.ShloMosaic.Lib.Pipeline.Value
import Idealize.ShloMosaic.Lib.ValueIdx
import Idealize.ShloMosaic.PureOps.Ideal.Laws

noncomputable section

namespace DeepFM.Ref

open Cert.ReferenceIdeal Cert.ReferenceIdeal.Read Idealize.ShloMosaic Idealize.ShloMosaic.ValueIdx

variable (x0 : (⟨S16384x13, .f32⟩ : BufTy).Contents (Elt Ideal)) (x1 : (⟨S16384x26, .i32⟩ : BufTy).Contents (Elt Ideal))
  (x2 : (⟨S13x1, .f32⟩ : BufTy).Contents (Elt Ideal)) (x3 : (⟨S1, .f32⟩ : BufTy).Contents (Elt Ideal))
  (x4 : (⟨S26x100000, .f32⟩ : BufTy).Contents (Elt Ideal)) (x5 : (⟨S26x100000x16, .f32⟩ : BufTy).Contents (Elt Ideal))
  (x6 : (⟨S429x400, .f32⟩ : BufTy).Contents (Elt Ideal)) (x7 : (⟨S400, .f32⟩ : BufTy).Contents (Elt Ideal))
  (x8 : (⟨S400x400, .f32⟩ : BufTy).Contents (Elt Ideal)) (x9 : (⟨S400, .f32⟩ : BufTy).Contents (Elt Ideal))
  (x10 : (⟨S401x1, .f32⟩ : BufTy).Contents (Elt Ideal)) (x11 : (⟨S1, .f32⟩ : BufTy).Contents (Elt Ideal))

/-! ## The pairwise term: sums over the field axis and over the component axis -/

/-- Entry `(b, d)` of the field sum is the sum over the 26 fields of component `d` of row `b`'s embeddings
    (the sum starts from zero). -/
theorem v40_at (b : Fin 16384) (d : Fin 16) :
    val_main_v40 (F := Ideal) x1 x5 (ix2 b d) = ∑ f : Fin 26, val_main_v39 (F := Ideal) x1 x5 (ix3 b f d) := by
  refine (val_main_v40_apply x1 x5 (ix2 b d)).trans ?_
  refine (congrArg (· + _) Ideal.ofBits_zero_f32).trans ((zero_add _).trans ?_)
  refine Finset.sum_congr rfl fun f _ => congrArg (val_main_v39 (F := Ideal) x1 x5) ?_
  exact funext fun a => Fin.ext (by match a with | ⟨0, _⟩ => rfl | ⟨1, _⟩ => rfl | ⟨2, _⟩ => rfl)

/-- Entry `(b, d)` of the field sum of squares. -/
theorem v43_at (b : Fin 16384) (d : Fin 16) :
    val_main_v43 (F := Ideal) x1 x5 (ix2 b d)
      = ∑ f : Fin 26, val_main_v39 (F := Ideal) x1 x5 (ix3 b f d) * val_main_v39 (F := Ideal) x1 x5 (ix3 b f d) := by
  refine (val_main_v43_apply x1 x5 (ix2 b d)).trans ?_
  refine (congrArg (· + _) Ideal.ofBits_zero_f32).trans ((zero_add _).trans ?_)
  refine Finset.sum_congr rfl fun f _ => ?_
  have e : idx_main_v43 (ix2 b d) f = ix3 b f d :=
    funext fun a => Fin.ext (by match a with | ⟨0, _⟩ => rfl | ⟨1, _⟩ => rfl | ⟨2, _⟩ => rfl)
  exact (congrArg (val_main_v42 (F := Ideal) x1 x5) e).trans rfl

/-- Row `b` of the pairwise term: one half of the sum over the components of (field sum)² − field sum of squares. -/
theorem v48_at (b : Fin 16384) :
    val_main_v48 (F := Ideal) x1 x5 (ix2 b (0 : Fin 1))
      = DeepFM.second (fun f d => val_main_v39 (F := Ideal) x1 x5 (ix3 b f d)) := by
  show val_main_v47 (F := Ideal) (ix2 b (0 : Fin 1)) * val_main_v46 (F := Ideal) x1 x5 (ix2 b (0 : Fin 1)) = _
  unfold DeepFM.second
  refine congrArg₂ (· * ·) ((val_main_v47_apply _).trans rfl) ?_
  refine (val_main_v46_apply x1 x5 _).trans ((val_main_v45_apply x1 x5 _).trans ?_)
  refine (congrArg (· + _) Ideal.ofBits_zero_f32).trans ((zero_add _).trans ?_)
  refine Finset.sum_congr rfl fun d _ => ?_
  have e : idx_main_v45 (idx_main_v46 (ix2 b (0 : Fin 1))) d = ix2 b d :=
    funext fun a => Fin.ext (by match a with | ⟨0, _⟩ => rfl | ⟨1, _⟩ => rfl)
  refine (congrArg (val_main_v44 (F := Ideal) x1 x5) e).trans ?_
  show val_main_v40 (F := Ideal) x1 x5 (ix2 b d) * val_main_v40 (F := Ideal) x1 x5 (ix2 b d)
      - val_main_v43 (F := Ideal) x1 x5 (ix2 b d) = _
  rw [v40_at, v43_at]

/-! ## The first-order term plus the pairwise term -/

/-- Row `b` of the factorization machine's number: the reference adds the linear product, its bias, the summed
    first-order weights and the pairwise term in exactly the association of `DeepFM.first … + DeepFM.second …`. -/
theorem v49_at (b : Fin 16384) :
    val_main_v49 (F := Ideal) x0 x1 x2 x3 x4 x5 (ix2 b (0 : Fin 1))
      = DeepFM.first (fun k => x0 (ix2 b k)) (val_main_v22 (F := Ideal) x1 x4 (ix2 b (0 : Fin 1))) x2 x3
        + DeepFM.second (fun f d => val_main_v39 (F := Ideal) x1 x5 (ix3 b f d)) := by
  show ((val_main_v17 (F := Ideal) x0 x2 (ix2 b (0 : Fin 1)) + val_main_v19 (F := Ideal) x3 (ix2 b (0 : Fin 1)))
      + val_main_v22 (F := Ideal) x1 x4 (ix2 b (0 : Fin 1))) + val_main_v48 (F := Ideal) x1 x5 (ix2 b (0 : Fin 1)) = _
  unfold DeepFM.first
  refine congrArg₂ (· + ·) (congrArg₂ (· + ·) (congrArg₂ (· + ·) ?_ ?_) rfl) (v48_at x1 x5 b)
  · refine (val_main_v17_apply x0 x2 _).trans (Finset.sum_congr rfl fun k _ => ?_)
    refine congrArg₂ (· * ·) (congrArg x0 ?_) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · refine (val_main_v19_apply x3 _).trans ((val_main_v18_apply x3 _).trans (congrArg x3 ?_))
    exact funext fun a => Fin.ext (by match a with | ⟨0, _⟩ => rfl)

/-! ## The network's input: the concatenation of the features with the flattened embeddings -/

/-- Entry `(b, k)` of the network's input is `DeepFM.feat` of row `b`: below column 13 a continuous feature, from
    column 13 on position `k − 13` of the flattened embeddings, which row-major arithmetic puts at field
    `(k − 13) / 16`, component `(k − 13) % 16`. -/
theorem v51_at (b : Fin 16384) (k : Fin 429) :
    val_main_v51 (F := Ideal) x0 x1 x5 (ix2 b k)
      = DeepFM.feat (fun k => x0 (ix2 b k)) (fun f d => val_main_v39 (F := Ideal) x1 x5 (ix3 b f d)) k := by
  unfold DeepFM.feat val_main_v51
  by_cases h : k.val < 13
  · rw [dif_pos h]
    exact concatenate_pair_apply_left 1 x0 (val_main_v50 (F := Ideal) x1 x5) _ (ix2 b k) rfl (ix2 b ⟨k.val, h⟩)
      (fun a => by match a with | ⟨0, _⟩ => rfl | ⟨1, _⟩ => rfl)
  · rw [dif_neg h]
    have hk : k.val - 13 < 416 := by have := k.isLt; omega
    refine (concatenate_pair_apply_right 1 x0 (val_main_v50 (F := Ideal) x1 x5) _ (ix2 b k) rfl rfl
      (ix2 b ⟨k.val - 13, hk⟩)
      (fun a ha => by match a with | ⟨0, _⟩ => rfl | ⟨1, _⟩ => exact absurd rfl ha)
      (by show (k.val - 13) + 13 = k.val; omega)).trans ?_
    refine (val_main_v50_apply x1 x5 _).trans (congrArg (val_main_v39 (F := Ideal) x1 x5) ?_)
    funext a
    apply Fin.ext
    have hb := b.isLt
    match a with
    | ⟨0, _⟩ => show (b.val * 416 + (k.val - 13)) / 416 = b.val; omega
    | ⟨1, _⟩ => show (b.val * 416 + (k.val - 13)) / 16 % 26 = (k.val - 13) / 16; omega
    | ⟨2, _⟩ => show (b.val * 416 + (k.val - 13)) % 16 = (k.val - 13) % 16; omega

/-! ## The two hidden layers -/

/-- A dense layer with relu at unit `n`, spelled out. -/
theorem layer_at {K N : Nat} (v : Fin K → EReal) (w : (⟨2, ![K, N]⟩ : Shape).Idx → EReal)
    (c : (⟨1, ![N]⟩ : Shape).Idx → EReal) (n : Fin N) :
    DeepFM.layer v w c n = max (∑ k : Fin K, v k * w (ix2 k n) + c (ix1 n)) 0 := rfl

/-- Entry `(b, n)` of the first hidden layer: the relu's zero is the broadcast constant zero. -/
theorem v56_at (b : Fin 16384) (n : Fin 400) :
    val_main_v56 (F := Ideal) x0 x1 x5 x6 x7 (ix2 b n)
      = DeepFM.layer (DeepFM.feat (fun k => x0 (ix2 b k)) (fun f d => val_main_v39 (F := Ideal) x1 x5 (ix3 b f d)))
          x6 x7 n := by
  show max (val_main_v52 (F := Ideal) x0 x1 x5 x6 (ix2 b n) + val_main_v54 (F := Ideal) x7 (ix2 b n))
      (val_main_call0_v0 (F := Ideal) (ix2 b n)) = _
  refine Eq.trans ?_ (layer_at _ _ _ _).symm
  refine congrArg₂ max (congrArg₂ (· + ·) ?_ ?_) ?_
  · refine (val_main_v52_apply x0 x1 x5 x6 _).trans (Finset.sum_congr rfl fun k _ => ?_)
    refine congrArg₂ (· * ·) ((congrArg (val_main_v51 (F := Ideal) x0 x1 x5) ?_).trans (v51_at x0 x1 x5 b k))
      (congrArg x6 ?_)
    · exact funext fun a => Fin.ext (by match a with | ⟨0, _⟩ => rfl | ⟨1, _⟩ => rfl)
    · exact funext fun a => Fin.ext (by match a with | ⟨0, _⟩ => rfl | ⟨1, _⟩ => rfl)
  · refine (val_main_v54_apply x7 _).trans ((val_main_v53_apply x7 _).trans (congrArg x7 ?_))
    exact funext fun a => Fin.ext (by match a with | ⟨0, _⟩ => rfl)
  · exact (val_main_call0_v0_apply _).trans Ideal.ofBits_zero_f32

/-- Entry `(b, n)` of the second hidden layer. -/
theorem v61_at (b : Fin 16384) (n : Fin 400) :
    val_main_v61 (F := Ideal) x0 x1 x5 x6 x7 x8 x9 (ix2 b n)
      = DeepFM.layer (DeepFM.layer
          (DeepFM.feat (fun k => x0 (ix2 b k)) (fun f d => val_main_v39 (F := Ideal) x1 x5 (ix3 b f d))) x6 x7)
          x8 x9 n := by
  show max (val_main_v57 (F := Ideal) x0 x1 x5 x6 x7 x8 (ix2 b n) + val_main_v59 (F := Ideal) x9 (ix2 b n))
      (val_main_call1_v0 (F := Ideal) (ix2 b n)) = _
  refine Eq.trans ?_ (layer_at _ _ _ _).symm
  refine congrArg₂ max (congrArg₂ (· + ·) ?_ ?_) ?_
  · refine (val_main_v57_apply x0 x1 x5 x6 x7 x8 _).trans (Finset.sum_congr rfl fun k _ => ?_)
    refine congrArg₂ (· * ·)
      ((congrArg (val_main_v56 (F := Ideal) x0 x1 x5 x6 x7) ?_).trans (v56_at x0 x1 x5 x6 x7 b k))
      (congrArg x8 ?_)
    · exact funext fun a => Fin.ext (by match a with | ⟨0, _⟩ => rfl | ⟨1, _⟩ => rfl)
    · exact funext fun a => Fin.ext (by match a with | ⟨0, _⟩ => rfl | ⟨1, _⟩ => rfl)
  · refine (val_main_v59_apply x9 _).trans ((val_main_v58_apply x9 _).trans (congrArg x9 ?_))
    exact funext fun a => Fin.ext (by match a with | ⟨0, _⟩ => rfl)
  · exact (val_main_call1_v0_apply _).trans Ideal.ofBits_zero_f32

/-! ## The output layer -/

/-- Entry `(b, k)` of the vector the output layer sees: column 0 the factorization machine's number, column `k ≥ 1`
    unit `k − 1` of the second hidden layer. -/
theorem v62_at (b : Fin 16384) (k : Fin 401) :
    val_main_v62 (F := Ideal) x0 x1 x2 x3 x4 x5 x6 x7 x8 x9 (ix2 b k)
      = DeepFM.fused (fun k => x0 (ix2 b k)) (fun f d => val_main_v39 (F := Ideal) x1 x5 (ix3 b f d))
          (val_main_v22 (F := Ideal) x1 x4 (ix2 b (0 : Fin 1))) x2 x3 x6 x7 x8 x9 k := by
  unfold DeepFM.fused val_main_v62
  by_cases h : k.val < 1
  · rw [if_pos h]
    refine (concatenate_pair_apply_left 1 (val_main_v49 (F := Ideal) x0 x1 x2 x3 x4 x5)
      (val_main_v61 (F := Ideal) x0 x1 x5 x6 x7 x8 x9) _ (ix2 b k) rfl (ix2 b (0 : Fin 1))
      (fun a => by match a with | ⟨0, _⟩ => rfl | ⟨1, _⟩ => show (0 : Nat) = k.val; omega)).trans ?_
    exact v49_at x0 x1 x2 x3 x4 x5 b
  · rw [if_neg h]
    have hk : k.val - 1 < 400 := by have := k.isLt; omega
    refine (concatenate_pair_apply_right 1 (val_main_v49 (F := Ideal) x0 x1 x2 x3 x4 x5)
      (val_main_v61 (F := Ideal) x0 x1 x5 x6 x7 x8 x9) _ (ix2 b k) rfl rfl (ix2 b ⟨k.val - 1, hk⟩)
      (fun a ha => by match a with | ⟨0, _⟩ => rfl | ⟨1, _⟩ => exact absurd rfl ha)
      (by show (k.val - 1) + 1 = k.val; omega)).trans ?_
    exact v61_at x0 x1 x5 x6 x7 x8 x9 b ⟨k.val - 1, hk⟩

/-- Row `b` of the result: the output layer's product plus its bias. -/
theorem v66_at (b : Fin 16384) :
    val_main_v66 (F := Ideal) x0 x1 x2 x3 x4 x5 x6 x7 x8 x9 x10 x11 (ix2 b (0 : Fin 1))
      = DeepFM.rowOut (fun k => x0 (ix2 b k)) (fun f d => val_main_v39 (F := Ideal) x1 x5 (ix3 b f d))
          (val_main_v22 (F := Ideal) x1 x4 (ix2 b (0 : Fin 1))) x2 x3 x6 x7 x8 x9 x10 x11 := by
  show val_main_v63 (F := Ideal) x0 x1 x2 x3 x4 x5 x6 x7 x8 x9 x10 (ix2 b (0 : Fin 1))
      + val_main_v65 (F := Ideal) x11 (ix2 b (0 : Fin 1)) = _
  unfold DeepFM.rowOut
  refine congrArg₂ (· + ·) ?_ ?_
  · refine (val_main_v63_apply x0 x1 x2 x3 x4 x5 x6 x7 x8 x9 x10 _).trans (Finset.sum_congr rfl fun k _ => ?_)
    refine congrArg₂ (· * ·)
      ((congrArg (val_main_v62 (F := Ideal) x0 x1 x2 x3 x4 x5 x6 x7 x8 x9) ?_).trans
        (v62_at x0 x1 x2 x3 x4 x5 x6 x7 x8 x9 b k))
      (congrArg x10 ?_)
    · exact funext fun a => Fin.ext (by match a with | ⟨0, _⟩ => rfl | ⟨1, _⟩ => rfl)
    · exact funext fun a => Fin.ext (by match a with | ⟨0, _⟩ => rfl | ⟨1, _⟩ => rfl)
  · refine (val_main_v65_apply x11 _).trans ((val_main_v64_apply x11 _).trans (congrArg x11 ?_))
    exact funext fun a => Fin.ext (by match a with | ⟨0, _⟩ => rfl)

/-- The reference's result array is `DeepFM.G` of the arguments and of its own two looked-up arrays. -/
theorem ref_eq (x0 : (⟨S16384x13, .f32⟩ : BufTy).Contents (Elt Ideal)) (x1 : (⟨S16384x26, .i32⟩ : BufTy).Contents (Elt Ideal))
    (x2 : (⟨S13x1, .f32⟩ : BufTy).Contents (Elt Ideal)) (x3 : (⟨S1, .f32⟩ : BufTy).Contents (Elt Ideal))
    (x4 : (⟨S26x100000, .f32⟩ : BufTy).Contents (Elt Ideal)) (x5 : (⟨S26x100000x16, .f32⟩ : BufTy).Contents (Elt Ideal))
    (x6 : (⟨S429x400, .f32⟩ : BufTy).Contents (Elt Ideal)) (x7 : (⟨S400, .f32⟩ : BufTy).Contents (Elt Ideal))
    (x8 : (⟨S400x400, .f32⟩ : BufTy).Contents (Elt Ideal)) (x9 : (⟨S400, .f32⟩ : BufTy).Contents (Elt Ideal))
    (x10 : (⟨S401x1, .f32⟩ : BufTy).Contents (Elt Ideal)) (x11 : (⟨S1, .f32⟩ : BufTy).Contents (Elt Ideal)) :
    val_main_v66 (F := Ideal) x0 x1 x2 x3 x4 x5 x6 x7 x8 x9 x10 x11
      = DeepFM.G x0 (val_main_v39 (F := Ideal) x1 x5) (val_main_v22 (F := Ideal) x1 x4) x2 x3 x6 x7 x8 x9 x10 x11 := by
  funext i
  refine (congrArg (val_main_v66 (F := Ideal) x0 x1 x2 x3 x4 x5 x6 x7 x8 x9 x10 x11) (DeepFM.eq_col i)).trans ?_
  exact v66_at x0 x1 x2 x3 x4 x5 x6 x7 x8 x9 x10 x11 ⟨(i 0).val, idx2_lt0 i⟩

end DeepFM.Ref

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KernelBody.lean ====
/-
  What one launch of the kernel's body stores, read at a row.

  The body sees a block of 2048 batch rows: `x0` the continuous features [2048,13], `x1` the flattened embeddings
  [2048,416], `x2` the summed first-order weights [2048,1], `x3` the 0/1 selector [416,16], and the whole weight
  arrays. It stores one column [2048,1]. Row `r` of that column is `DeepFM.rowOut` of row `r` of the three blocks:

  * the two hidden layers are matrix products into a zero accumulator with a bias row added and a maximum with
    zero taken; the operands' change of float format is the identity on the extended reals, so each is
    `DeepFM.layer`; the first layer's input is the 13 features followed by the 416 embedding numbers;
  * the pairwise term multiplies the flattened row, and its square, with the selector; by `sum_mul_selector` those
    products are the sums over the 26 fields, so the term is `DeepFM.second`;
  * the first-order term is added up as (s + x·w_c) + b_c where the specification has (x·w_c + b_c) + s: addition of
    extended reals is commutative and associative, infinities included;
  * the output layer is one more product, of the row [first + second | hidden₂] with w_out, plus b_out.

  A matrix product read at an index is the sum over the contraction index (`matmul_zero_apply`); the four facts
  about which coordinate of which operand an output index and a contraction index select are decided per product.
-/
import proofs.«407073_j10368051052905_3_alg».proof.Proof.Gen.KernelIdeal.Skeleton
import proofs.«407073_j10368051052905_3_alg».proof.Proof.Spec
import proofs.«407073_j10368051052905_3_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace DeepFM

/-- Position of component `d` of field `f` in a flattened row of 26·16 numbers. -/
def flat (f : Fin 26) (d : Fin 16) : Fin 416 := ⟨f.val * 16 + d.val, by have := f.isLt; have := d.isLt; omega⟩

theorem flat_fieldOf_compOf (j : Fin 416) : flat (fieldOf j) (compOf j) = j :=
  Fin.ext (by show j.val / 16 * 16 + j.val % 16 = j.val; omega)

end DeepFM

namespace DeepFM.KBody

open Cert.KernelIdeal Cert.KernelIdeal.Gen Idealize.ShloMosaic Idealize.ShloMosaic.ValueIdx

/-! ## A matrix product into a zero accumulator, at an index -/

/-- A product [M,K]·[K,N] into the zero accumulator, at (r, n): the sum over the contraction index `k` of
    left (r, k) times right (k, n). The hypotheses say which coordinates the dimension numbers select. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (r : Fin M) (n : Fin N) :
    matmul D none L R (constant ⟨2, ![M, N]⟩ .f32 0x00000000#32) (ix2 r n) = ∑ k : Fin K, L (ix2 r k) * R (ix2 k n) := by
  refine (Ideal.matmul_constant_zero_apply D none L R (ix2 r n)).trans ?_
  rw [← Equiv.sum_comp (contrEquiv1 D K hr hs).symm]
  refine Finset.sum_congr rfl fun k _ => ?_
  have hk := contrEquiv1_symm_val D K hr hs k
  have el : D.lhsIdx (ix2 r n) ((contrEquiv1 D K hr hs).symm k) = ix2 r k := funext fun a => Fin.ext (by
    match a with
    | ⟨0, _⟩ => exact hl0 _ _
    | ⟨1, _⟩ => exact (hl1 _ _).trans hk)
  have er : D.rhsIdx (ix2 r n) ((contrEquiv1 D K hr hs).symm k) = ix2 k n := funext fun a => Fin.ext (by
    match a with
    | ⟨0, _⟩ => exact (hr0 _ _).trans hk
    | ⟨1, _⟩ => exact hr1 _ _)
  rw [el, er]

/-- The first hidden layer's product, [2048,429]·[429,400]. -/
theorem mm_w1 {φ₁ φ₂ : FTy} (L : FVec Ideal S2048x429 φ₁) (R : FVec Ideal S429x400 φ₂) (r : Fin 2048) (n : Fin 400) :
    matmul dot_S2048x429_S429x400_S2048x400_1_0_0_1_n_n none L R (constant S2048x400 .f32 0x00000000#32) (ix2 r n) = ∑ k : Fin 429, L (ix2 r k) * R (ix2 k n) :=
  matmul_zero_apply dot_S2048x429_S429x400_S2048x400_1_0_0_1_n_n rfl rfl
    (fun i q => by
      unfold DotDims.lhsIdx
      rw [dif_neg (show ¬(0 : Fin S2048x429.rank) ∈ dot_S2048x429_S429x400_S2048x400_1_0_0_1_n_n.lhsBatch by decide), dif_pos (show (0 : Fin S2048x429.rank) ∈ dot_S2048x429_S429x400_S2048x400_1_0_0_1_n_n.lhsNonContracting by decide)]
      rfl)
    (fun i q => dot_S2048x429_S429x400_S2048x400_1_0_0_1_n_n.lhsIdx_val_of_single rfl i q)
    (fun i q => dot_S2048x429_S429x400_S2048x400_1_0_0_1_n_n.rhsIdx_val_of_single rfl i q)
    (fun i q => by
      unfold DotDims.rhsIdx
      rw [dif_neg (show ¬(1 : Fin S429x400.rank) ∈ dot_S2048x429_S429x400_S2048x400_1_0_0_1_n_n.rhsBatch by decide), dif_pos (show (1 : Fin S429x400.rank) ∈ dot_S2048x429_S429x400_S2048x400_1_0_0_1_n_n.rhsNonContracting by decide)]
      rfl)
    L R r n

/-- The second hidden layer's product, [2048,400]·[400,400]. -/
theorem mm_w2 {φ₁ φ₂ : FTy} (L : FVec Ideal S2048x400 φ₁) (R : FVec Ideal S400x400 φ₂) (r : Fin 2048) (n : Fin 400) :
    matmul dot_S2048x400_S400x400_S2048x400_1_0_0_1_n_n none L R (constant S2048x400 .f32 0x00000000#32) (ix2 r n) = ∑ k : Fin 400, L (ix2 r k) * R (ix2 k n) :=
  matmul_zero_apply dot_S2048x400_S400x400_S2048x400_1_0_0_1_n_n rfl rfl
    (fun i q => by
      unfold DotDims.lhsIdx
      rw [dif_neg (show ¬(0 : Fin S2048x400.rank) ∈ dot_S2048x400_S400x400_S2048x400_1_0_0_1_n_n.lhsBatch by decide), dif_pos (show (0 : Fin S2048x400.rank) ∈ dot_S2048x400_S400x400_S2048x400_1_0_0_1_n_n.lhsNonContracting by decide)]
      rfl)
    (fun i q => dot_S2048x400_S400x400_S2048x400_1_0_0_1_n_n.lhsIdx_val_of_single rfl i q)
    (fun i q => dot_S2048x400_S400x400_S2048x400_1_0_0_1_n_n.rhsIdx_val_of_single rfl i q)
    (fun i q => by
      unfold DotDims.rhsIdx
      rw [dif_neg (show ¬(1 : Fin S400x400.rank) ∈ dot_S2048x400_S400x400_S2048x400_1_0_0_1_n_n.rhsBatch by decide), dif_pos (show (1 : Fin S400x400.rank) ∈ dot_S2048x400_S400x400_S2048x400_1_0_0_1_n_n.rhsNonContracting by decide)]
      rfl)
    L R r n

/-- The product with the selector, [2048,416]·[416,16]. -/
theorem mm_sel {φ₁ φ₂ : FTy} (L : FVec Ideal S2048x416 φ₁) (R : FVec Ideal S416x16 φ₂) (r : Fin 2048) (n : Fin 16) :
    matmul dot_S2048x416_S416x16_S2048x16_1_0_0_1_n_n none L R (constant S2048x16 .f32 0x00000000#32) (ix2 r n) = ∑ k : Fin 416, L (ix2 r k) * R (ix2 k n) :=
  matmul_zero_apply dot_S2048x416_S416x16_S2048x16_1_0_0_1_n_n rfl rfl
    (fun i q => by
      unfold DotDims.lhsIdx
      rw [dif_neg (show ¬(0 : Fin S2048x416.rank) ∈ dot_S2048x416_S416x16_S2048x16_1_0_0_1_n_n.lhsBatch by decide), dif_pos (show (0 : Fin S2048x416.rank) ∈ dot_S2048x416_S416x16_S2048x16_1_0_0_1_n_n.lhsNonContracting by decide)]
      rfl)
    (fun i q => dot_S2048x416_S416x16_S2048x16_1_0_0_1_n_n.lhsIdx_val_of_single rfl i q)
    (fun i q => dot_S2048x416_S416x16_S2048x16_1_0_0_1_n_n.rhsIdx_val_of_single rfl i q)
    (fun i q => by
      unfold DotDims.rhsIdx
      rw [dif_neg (show ¬(1 : Fin S416x16.rank) ∈ dot_S2048x416_S416x16_S2048x16_1_0_0_1_n_n.rhsBatch by decide), dif_pos (show (1 : Fin S416x16.rank) ∈ dot_S2048x416_S416x16_S2048x16_1_0_0_1_n_n.rhsNonContracting by decide)]
      rfl)
    L R r n

/-- The first-order product, [2048,13]·[13,1]. -/
theorem mm_wc {φ₁ φ₂ : FTy} (L : FVec Ideal S2048x13 φ₁) (R : FVec Ideal S13x1 φ₂) (r : Fin 2048) (n : Fin 1) :
    matmul dot_S2048x13_S13x1_S2048x1_1_0_0_1_n_n none L R (constant S2048x1 .f32 0x00000000#32) (ix2 r n) = ∑ k : Fin 13, L (ix2 r k) * R (ix2 k n) :=
  matmul_zero_apply dot_S2048x13_S13x1_S2048x1_1_0_0_1_n_n rfl rfl
    (fun i q => by
      unfold DotDims.lhsIdx
      rw [dif_neg (show ¬(0 : Fin S2048x13.rank) ∈ dot_S2048x13_S13x1_S2048x1_1_0_0_1_n_n.lhsBatch by decide), dif_pos (show (0 : Fin S2048x13.rank) ∈ dot_S2048x13_S13x1_S2048x1_1_0_0_1_n_n.lhsNonContracting by decide)]
      rfl)
    (fun i q => dot_S2048x13_S13x1_S2048x1_1_0_0_1_n_n.lhsIdx_val_of_single rfl i q)
    (fun i q => dot_S2048x13_S13x1_S2048x1_1_0_0_1_n_n.rhsIdx_val_of_single rfl i q)
    (fun i q => by
      unfold DotDims.rhsIdx
      rw [dif_neg (show ¬(1 : Fin S13x1.rank) ∈ dot_S2048x13_S13x1_S2048x1_1_0_0_1_n_n.rhsBatch by decide), dif_pos (show (1 : Fin S13x1.rank) ∈ dot_S2048x13_S13x1_S2048x1_1_0_0_1_n_n.rhsNonContracting by decide)]
      rfl)
    L R r n

/-- The output layer's product, [2048,401]·[401,1]. -/
theorem mm_wo {φ₁ φ₂ : FTy} (L : FVec Ideal S2048x401 φ₁) (R : FVec Ideal S401x1 φ₂) (r : Fin 2048) (n : Fin 1) :
    matmul dot_S2048x401_S401x1_S2048x1_1_0_0_1_n_n none L R (constant S2048x1 .f32 0x00000000#32) (ix2 r n) = ∑ k : Fin 401, L (ix2 r k) * R (ix2 k n) :=
  matmul_zero_apply dot_S2048x401_S401x1_S2048x1_1_0_0_1_n_n rfl rfl
    (fun i q => by
      unfold DotDims.lhsIdx
      rw [dif_neg (show ¬(0 : Fin S2048x401.rank) ∈ dot_S2048x401_S401x1_S2048x1_1_0_0_1_n_n.lhsBatch by decide), dif_pos (show (0 : Fin S2048x401.rank) ∈ dot_S2048x401_S401x1_S2048x1_1_0_0_1_n_n.lhsNonContracting by decide)]
      rfl)
    (fun i q => dot_S2048x401_S401x1_S2048x1_1_0_0_1_n_n.lhsIdx_val_of_single rfl i q)
    (fun i q => dot_S2048x401_S401x1_S2048x1_1_0_0_1_n_n.rhsIdx_val_of_single rfl i q)
    (fun i q => by
      unfold DotDims.rhsIdx
      rw [dif_neg (show ¬(1 : Fin S401x1.rank) ∈ dot_S2048x401_S401x1_S2048x1_1_0_0_1_n_n.rhsBatch by decide), dif_pos (show (1 : Fin S401x1.rank) ∈ dot_S2048x401_S401x1_S2048x1_1_0_0_1_n_n.rhsNonContracting by decide)]
      rfl)
    L R r n

/-! ## The layout steps -/

/-- A vector [n] made a row [1,n] and repeated down [a,n] reads, at (r, c), the vector at c. -/
theorem bias_row {a n : Nat} (b : (⟨1, ![n]⟩ : Shape).Idx → EReal) (hc : (⟨1, ![n]⟩ : Shape).ShapeCasts ⟨2, ![1, n]⟩)
    (hb : (⟨2, ![1, n]⟩ : Shape).Broadcasts ⟨2, ![a, n]⟩) (r : Fin a) (c : Fin n) :
    broadcastTo ⟨2, ![a, n]⟩ (shapeCast ⟨2, ![1, n]⟩ b hc) hb (ix2 r c) = b (ix1 c) :=
  (broadcastTo_1b_ab_apply _ hb r c).trans (shapeCast_a_1a_apply b hc 0 c)

/-- The network's input row: the 13 features joined with the 416 embedding numbers is `DeepFM.feat`. -/
theorem feat_apply (x0 : FVec Ideal S2048x13 .f32) (x1 : FVec Ideal S2048x416 .f32) (r : Fin 2048) (k : Fin 429) :
    concatenate S2048x429 1 [⟨S2048x13, x0⟩, ⟨S2048x416, x1⟩] concatenates_S2048x13_S2048x416_S2048x429_d1 (ix2 r k)
      = feat (fun k => x0 (ix2 r k)) (fun f d => x1 (ix2 r (flat f d))) k := by
  unfold feat
  split
  · next h =>
    exact concatenate_pair_apply_left 1 x0 x1 _ (ix2 r k) rfl (ix2 r ⟨k.val, h⟩) (fun b => by
      match b with
      | ⟨0, _⟩ => rfl
      | ⟨1, _⟩ => rfl)
  · next h =>
    have hk := k.isLt
    refine (concatenate_pair_apply_right 1 x0 x1 _ (ix2 r k) rfl rfl (ix2 r ⟨k.val - 13, by omega⟩) (fun b hb => ?_) ?_).trans ?_
    · match b with
      | ⟨0, _⟩ => rfl
      | ⟨1, _⟩ => exact absurd rfl hb
    · show (k.val - 13) + 13 = k.val
      omega
    · exact congrArg x1 (congrArg (ix2 r) (Fin.ext (by
        show k.val - 13 = (k.val - 13) / 16 * 16 + (k.val - 13) % 16
        omega)))

/-- A hidden layer on a block: product with the weights, bias row, maximum with zero; at (r, n). -/
theorem dense_apply {K : Nat} (D : DotDims ⟨2, ![2048, K]⟩ ⟨2, ![K, 400]⟩ ⟨2, ![2048, 400]⟩)
    (hD : ∀ (L : FVec Ideal ⟨2, ![2048, K]⟩ .bf16) (R : FVec Ideal ⟨2, ![K, 400]⟩ .bf16) (r : Fin 2048) (n : Fin 400),
      matmul D none L R (constant S2048x400 .f32 0x00000000#32) (ix2 r n) = ∑ k : Fin K, L (ix2 r k) * R (ix2 k n))
    (X : FVec Ideal ⟨2, ![2048, K]⟩ .f32) (W : FVec Ideal ⟨2, ![K, 400]⟩ .f32) (b : FVec Ideal S400 .f32)
    (h1 h2 : FTy.bits .bf16 < FTy.bits .f32) (hc : S400.ShapeCasts S1x400) (hb : S1x400.Broadcasts S2048x400)
    (r : Fin 2048) (n : Fin 400) :
    maximumf (addf (matmul D none (truncf .bf16 X h1) (truncf .bf16 W h2) (constant S2048x400 .f32 0x00000000#32))
        (broadcastTo S2048x400 (shapeCast S1x400 b hc) hb)) (broadcast S2048x400 (Scalar.ofBits .f32 0x00000000#32)) (ix2 r n)
      = layer (fun k => X (ix2 r k)) W b n := by
  show max (matmul D none (truncf .bf16 X h1) (truncf .bf16 W h2) (constant S2048x400 .f32 0x00000000#32) (ix2 r n)
      + broadcastTo S2048x400 (shapeCast S1x400 b hc) hb (ix2 r n)) (Ideal.ofBits .f32 0x00000000#32) = _
  rw [hD, bias_row, Ideal.ofBits_zero_f32]
  rfl

/-- Both hidden layers: `k0_pay3` at (r, n). -/
theorem hidden_apply (x0 : FVec Ideal S2048x13 .f32) (x1 : FVec Ideal S2048x416 .f32) (x6 : FVec Ideal S429x400 .f32)
    (x7 : FVec Ideal S400 .f32) (x8 : FVec Ideal S400x400 .f32) (x9 : FVec Ideal S400 .f32) (r : Fin 2048) (n : Fin 400) :
    k0_pay3 (F := Ideal) x0 x1 x6 x7 x8 x9 (ix2 r n)
      = layer (layer (feat (fun k => x0 (ix2 r k)) (fun f d => x1 (ix2 r (flat f d)))) x6 x7) x8 x9 n := by
  unfold k0_pay3 k0_pay2
  rw [shapeCast_self]
  refine (dense_apply dot_S2048x400_S400x400_S2048x400_1_0_0_1_n_n (fun L R r n => mm_w2 L R r n) _ x8 x9 _ _ _ _ r n).trans ?_
  refine congrArg (fun v => layer v x8 x9 n) (funext fun k => ?_)
  refine (dense_apply dot_S2048x429_S429x400_S2048x400_1_0_0_1_n_n (fun L R r n => mm_w1 L R r n) _ x6 x7 _ _ _ _ r k).trans ?_
  exact congrArg (fun v => layer v x6 x7 k) (funext fun j => feat_apply x0 x1 r j)

/-- A row sum over the 16 components, at row r. -/
theorem rowsum_apply (src : FVec Ideal S2048x16 .f32) (r : Fin 2048) :
    multiReduction .add [1] S2048 src 0x00000000#32 reduces_S2048x16_S2048 (.inl rfl) rfl (ix1 r) = ∑ d : Fin 16, src (ix2 r d) := by
  refine (Ideal.multiReduction_add_single src 0x00000000#32 reduces_S2048x16_S2048 (.inl rfl) rfl (ix1 r)).trans ?_
  refine Finset.sum_congr rfl fun d _ => congrArg src (funext fun a => ?_)
  match a with
  | ⟨0, _⟩ => rfl
  | ⟨1, _⟩ => rfl

/-- The flattened row times the selector is the sum over the fields. -/
theorem sel_sum (y : FVec Ideal S2048x416 .f32) (x3 : FVec Ideal S416x16 .f32)
    (hsel : ∀ (j : Fin 416) (d : Fin 16), x3 (ix2 j d) = if compOf j = d then (1 : EReal) else 0) (r : Fin 2048) (d : Fin 16) :
    matmul dot_S2048x416_S416x16_S2048x16_1_0_0_1_n_n none y x3 (constant S2048x16 .f32 0x00000000#32) (ix2 r d) = ∑ f : Fin 26, y (ix2 r (flat f d)) := by
  rw [mm_sel]
  refine Eq.trans (Finset.sum_congr rfl fun j _ => ?_) (sum_mul_selector (fun f c => y (ix2 r (flat f c))) d)
  rw [hsel, flat_fieldOf_compOf]

/-- The pairwise term: `k0_pay4` at row r. -/
theorem second_apply (x1 : FVec Ideal S2048x416 .f32) (x3 : FVec Ideal S416x16 .f32)
    (hsel : ∀ (j : Fin 416) (d : Fin 16), x3 (ix2 j d) = if compOf j = d then (1 : EReal) else 0) (r : Fin 2048) :
    k0_pay4 (F := Ideal) x1 x3 (ix2 r (0 : Fin 1)) = second (fun f d => x1 (ix2 r (flat f d))) := by
  unfold k0_pay4 k0_pay2
  rw [shapeCast_self, shapeCast_self]
  show Ideal.ofBits .f32 0x3F000000#32 * shapeCast S2048x1 _ shapeCasts_S2048_S2048x1 (ix2 r (0 : Fin 1)) = _
  rw [Cert.Columns.shapeCast_a_a1_apply, rowsum_apply]
  unfold second half
  refine congrArg (Ideal.ofBits .f32 0x3F000000#32 * ·) (Finset.sum_congr rfl fun d _ => ?_)
  show matmul dot_S2048x416_S416x16_S2048x16_1_0_0_1_n_n none x1 x3 (constant (F := Ideal) S2048x16 .f32 0x00000000#32) (ix2 r d)
        * matmul dot_S2048x416_S416x16_S2048x16_1_0_0_1_n_n none x1 x3 (constant (F := Ideal) S2048x16 .f32 0x00000000#32) (ix2 r d)
      - matmul dot_S2048x416_S416x16_S2048x16_1_0_0_1_n_n none (mulf x1 x1) x3 (constant (F := Ideal) S2048x16 .f32 0x00000000#32) (ix2 r d) = _
  rw [sel_sum x1 x3 hsel r d, sel_sum (mulf x1 x1) x3 hsel r d]
  rfl

/-- The stored column: `k0_pay1` at row r, for any hidden block `H`, pairwise column `P` and first-order column `S`. -/
theorem out_apply (x0 : FVec Ideal S2048x13 .f32) (H : FVec Ideal S2048x400 .f32) (P S : FVec Ideal S2048x1 .f32)
    (x4 : FVec Ideal S13x1 .f32) (x5 : FVec Ideal S1 .f32) (x10 : FVec Ideal S401x1 .f32) (x11 : FVec Ideal S1 .f32) (r : Fin 2048) :
    k0_pay1 (F := Ideal) x0 H P S x4 x5 x10 x11 (ix2 r (0 : Fin 1))
      = (∑ k : Fin 401, (if k.val < 1 then ((S (ix2 r 0) + ∑ j : Fin 13, x0 (ix2 r j) * x4 (ix2 j 0)) + x5 (ix1 0)) + P (ix2 r 0)
            else H (ix2 r ⟨k.val - 1, by have := k.isLt; omega⟩)) * x10 (ix2 k 0)) + x11 (ix1 0) := by
  unfold k0_pay1
  show matmul dot_S2048x401_S401x1_S2048x1_1_0_0_1_n_n none _ x10 (constant (F := Ideal) S2048x1 .f32 0x00000000#32) (ix2 r (0 : Fin 1))
      + broadcastTo S2048x1 (shapeCast S1x1 x11 shapeCasts_S1_S1x1) broadcasts_S1x1_S2048x1 (ix2 r (0 : Fin 1)) = _
  rw [mm_wo, bias_row]
  refine congrArg (· + x11 (ix1 0)) (Finset.sum_congr rfl fun k _ => congrArg (· * x10 (ix2 k 0)) ?_)
  have hk := k.isLt
  split
  · next h =>
    refine (concatenate_pair_apply_left (s₁ := S2048x1) (s₂ := S2048x400) 1 _ H _ (ix2 r k) rfl (ix2 r (0 : Fin 1)) (fun b => by
      match b with
      | ⟨0, _⟩ => rfl
      | ⟨1, _⟩ => show (0 : Nat) = k.val; omega)).trans ?_
    show ((S (ix2 r 0) + matmul dot_S2048x13_S13x1_S2048x1_1_0_0_1_n_n none x0 x4 (constant (F := Ideal) S2048x1 .f32 0x00000000#32) (ix2 r (0 : Fin 1)))
        + broadcastTo S2048x1 (shapeCast S1x1 x5 shapeCasts_S1_S1x1) broadcasts_S1x1_S2048x1 (ix2 r (0 : Fin 1))) + P (ix2 r 0) = _
    rw [mm_wc, bias_row]
  · next h =>
    exact concatenate_pair_apply_right (s₁ := S2048x1) (s₂ := S2048x400) 1 _ H _ (ix2 r k) rfl rfl (ix2 r ⟨k.val - 1, by omega⟩) (fun b hb => by
      match b with
      | ⟨0, _⟩ => rfl
      | ⟨1, _⟩ => exact absurd rfl hb) (by show (k.val - 1) + 1 = k.val; omega)

/-- Row r of what the body stores is the specification's answer for row r of the blocks. -/
theorem pay_apply (x0 : FVec Ideal S2048x13 .f32) (x1 : FVec Ideal S2048x416 .f32) (x2 : FVec Ideal S2048x1 .f32)
    (x3 : FVec Ideal S416x16 .f32) (x4 : FVec Ideal S13x1 .f32) (x5 : FVec Ideal S1 .f32) (x6 : FVec Ideal S429x400 .f32)
    (x7 : FVec Ideal S400 .f32) (x8 : FVec Ideal S400x400 .f32) (x9 : FVec Ideal S400 .f32) (x10 : FVec Ideal S401x1 .f32)
    (x11 : FVec Ideal S1 .f32)
    (hsel : ∀ (j : Fin 416) (d : Fin 16), x3 (ix2 j d) = if compOf j = d then (1 : EReal) else 0) (r : Fin 2048) :
    k0_pay1 (F := Ideal) x0 (k0_pay3 x0 x1 x6 x7 x8 x9) (k0_pay4 x1 x3) (k0_pay5 x2) x4 x5 x10 x11 (ix2 r (0 : Fin 1))
      = rowOut (fun k => x0 (ix2 r k)) (fun f d => x1 (ix2 r (flat f d))) (x2 (ix2 r 0)) x4 x5 x6 x7 x8 x9 x10 x11 := by
  refine (out_apply x0 _ _ _ x4 x5 x10 x11 r).trans ?_
  unfold rowOut
  refine congrArg (· + x11 (ix1 0)) (Finset.sum_congr rfl fun k _ => congrArg (· * x10 (ix2 k 0)) ?_)
  unfold fused
  split
  · rw [second_apply x1 x3 hsel r]
    refine congrArg (· + second (fun f d => x1 (ix2 r (flat f d)))) ?_
    unfold first k0_pay5
    rw [shapeCast_self, add_comm (x2 (ix2 r 0)), add_right_comm]
  · exact hidden_apply x0 x1 x6 x7 x8 x9 r _

end DeepFM.KBody

end
-- ==== Proof.KernelBlocks.lean ====
/-
  From the blocks to the whole result array.

  The launch runs the body at eight grid points. At point `t` the three batch windows (features, flattened
  embeddings, summed first-order weights) and the result window sit on rows 2048·t … 2048·t + 2047, and every
  weight window is the whole weight array. So what point `t` writes back is rows 2048·t … of the array
  `DeepFM.G` of the arrays the launch finds (`flushed_eq`, from the body's row lemma), the eight row blocks cover
  all 16384 rows (`cover`: row i lies in block i / 2048), and the result array ends as `DeepFM.G` (`final_of`).

  The embeddings enter twice: the launch reads them flattened, [16384,416], the specification speaks of them as
  [16384,26,16]. This module takes any array `E` with `flattened (b, 16 f + d) = E (b, f, d)` and any reading of
  the selector as the 0/1 matrix of `j % 16 = d`; the next module supplies both.
-/
import proofs.«407073_j10368051052905_3_alg».proof.Proof.Gen.KernelIdeal.Value
import proofs.«407073_j10368051052905_3_alg».proof.Proof.Spec
import proofs.«407073_j10368051052905_3_alg».proof.Proof.KernelBody
import Idealize.ShloMosaic.Lib.Pipeline.Value
import Idealize.ShloMosaic.Lib.ValueIdx

noncomputable section

namespace DeepFM.KBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## Where each window's block sits, decided over the eight grid points -/

theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 1) = 0 :=
  (by decide +kernel : ∀ t : Fin grid0.N, win0_5.index t (0 : Fin 1) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 1) = 0 :=
  (by decide +kernel : ∀ t : Fin grid0.N, win0_7.index t (0 : Fin 1) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 1) = 0 :=
  (by decide +kernel : ∀ t : Fin grid0.N, win0_9.index t (0 : Fin 1) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 1) = 0 :=
  (by decide +kernel : ∀ t : Fin grid0.N, win0_11.index t (0 : Fin 1) = 0)

/-- Row `r` of the block of grid point `t`, as a row of the batch. -/
def rowOf (t : Fin cfg0.N) (r : Fin 2048) : Fin 16384 :=
  ⟨t.val * 2048 + r.val, by have := t.isLt; have h8 : cfg0.N = 8 := N_0; have := r.isLt; omega⟩

/-! ## The windows' blocks read off their arrays -/

/-- Window 0's block at point `t`, at (r, k): the array at (2048·t + r, k). -/
theorem blk0_apply (c : Dev nD) (t : Fin cfg0.N) (r : Fin 2048) (k : Fin 13) :
    (iblk m c 0 t : S2048x13.Idx → EReal) (ix2 r k) = (V m c main_arg0 : S16384x13.Idx → EReal) (ix2 (rowOf t r) k) := by
  obtain ⟨e0, e1⟩ := idx0 t
  unfold iblk
  rw [View.read_apply]
  show (V m c main_arg0 : S16384x13.Idx → EReal) _ = _
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 13 + 1 * k.val = k.val; rw [e1]; omega

/-- Window 1's block at point `t`, at (r, k): the array at (2048·t + r, k). -/
theorem blk1_apply (c : Dev nD) (t : Fin cfg0.N) (r : Fin 2048) (k : Fin 416) :
    (iblk m c 1 t : S2048x416.Idx → EReal) (ix2 r k) = (V m c main_v35 : S16384x416.Idx → EReal) (ix2 (rowOf t r) k) := by
  obtain ⟨e0, e1⟩ := idx1 t
  unfold iblk
  rw [View.read_apply]
  show (V m c main_v35 : S16384x416.Idx → EReal) _ = _
  congr 1
  funext a
  apply Fin.ext
  match a with
  | ⟨0, _⟩ => show win0_1.index t (0 : Fin 2) * 2048 + 1 * r.val = t.val * 2048 + r.val; rw [e0]; omega
  | ⟨1, _⟩ => show win0_1.index t (1 : Fin 2) * 416 + 1 * k.val = k.val; rw [e1]; omega

/-- Window 2's block at point `t`, at (r, k): the array at (2048·t + r, k). -/
theorem blk2_apply (c : Dev nD) (t : Fin cfg0.N) (r : Fin 2048) (k : Fin 1) :
    (iblk m c 2 t : S2048x1.Idx → EReal) (ix2 r k) = (V m c main_v18 : S16384x1.Idx → EReal) (ix2 (rowOf t r) k) := by
  obtain ⟨e0, e1⟩ := idx2 t
  unfold iblk
  rw [View.read_apply]
  show (V m c main_v18 : S16384x1.Idx → EReal) _ = _
  congr 1
  funext a
  apply Fin.ext
  match a with
  | ⟨0, _⟩ => show win0_2.index t (0 : Fin 2) * 2048 + 1 * r.val = t.val * 2048 + r.val; rw [e0]; omega
  | ⟨1, _⟩ => show win0_2.index t (1 : Fin 2) * 1 + 1 * k.val = k.val; rw [e1]; omega

/-- Window 3's block is the whole array at every point. -/
theorem blk3_eq (c : Dev nD) (t : Fin cfg0.N) : (iblk m c 3 t : S416x16.Idx → EReal) = V m c main_v44 := by
  obtain ⟨e0, e1⟩ := idx3 t
  funext y
  unfold iblk
  rw [View.read_apply]
  show (V m c main_v44 : S416x16.Idx → EReal) _ = _
  congr 1
  funext a
  apply Fin.ext
  match a with
  | ⟨0, _⟩ => show win0_3.index t (0 : Fin 2) * 416 + 1 * (y 0).val = (y 0).val; rw [e0]; omega
  | ⟨1, _⟩ => show win0_3.index t (1 : Fin 2) * 16 + 1 * (y 1).val = (y 1).val; rw [e1]; omega

/-- Window 4's block is the whole array at every point. -/
theorem blk4_eq (c : Dev nD) (t : Fin cfg0.N) : (iblk m c 4 t : S13x1.Idx → EReal) = V m c main_arg2 := by
  obtain ⟨e0, e1⟩ := idx4 t
  funext y
  unfold iblk
  rw [View.read_apply]
  show (V m c main_arg2 : S13x1.Idx → EReal) _ = _
  congr 1
  funext a
  apply Fin.ext
  match a with
  | ⟨0, _⟩ => show win0_4.index t (0 : Fin 2) * 13 + 1 * (y 0).val = (y 0).val; rw [e0]; omega
  | ⟨1, _⟩ => show win0_4.index t (1 : Fin 2) * 1 + 1 * (y 1).val = (y 1).val; rw [e1]; omega

/-- Window 5's block is the whole array at every point. -/
theorem blk5_eq (c : Dev nD) (t : Fin cfg0.N) : (iblk m c 5 t : S1.Idx → EReal) = V m c main_arg3 := by
  have e0 := idx5 t
  funext y
  unfold iblk
  rw [View.read_apply]
  show (V m c main_arg3 : S1.Idx → EReal) _ = _
  congr 1
  funext a
  apply Fin.ext
  match a with
  | ⟨0, _⟩ => show win0_5.index t (0 : Fin 1) * 1 + 1 * (y 0).val = (y 0).val; rw [e0]; omega

/-- Window 6's block is the whole array at every point. -/
theorem blk6_eq (c : Dev nD) (t : Fin cfg0.N) : (iblk m c 6 t : S429x400.Idx → EReal) = V m c main_arg6 := by
  obtain ⟨e0, e1⟩ := idx6 t
  funext y
  unfold iblk
  rw [View.read_apply]
  show (V m c main_arg6 : S429x400.Idx → EReal) _ = _
  congr 1
  funext a
  apply Fin.ext
  match a with
  | ⟨0, _⟩ => show win0_6.index t (0 : Fin 2) * 429 + 1 * (y 0).val = (y 0).val; rw [e0]; omega
  | ⟨1, _⟩ => show win0_6.index t (1 : Fin 2) * 400 + 1 * (y 1).val = (y 1).val; rw [e1]; omega

/-- Window 7's block is the whole array at every point. -/
theorem blk7_eq (c : Dev nD) (t : Fin cfg0.N) : (iblk m c 7 t : S400.Idx → EReal) = V m c main_arg7 := by
  have e0 := idx7 t
  funext y
  unfold iblk
  rw [View.read_apply]
  show (V m c main_arg7 : S400.Idx → EReal) _ = _
  congr 1
  funext a
  apply Fin.ext
  match a with
  | ⟨0, _⟩ => show win0_7.index t (0 : Fin 1) * 400 + 1 * (y 0).val = (y 0).val; rw [e0]; omega

/-- Window 8's block is the whole array at every point. -/
theorem blk8_eq (c : Dev nD) (t : Fin cfg0.N) : (iblk m c 8 t : S400x400.Idx → EReal) = V m c main_arg8 := by
  obtain ⟨e0, e1⟩ := idx8 t
  funext y
  unfold iblk
  rw [View.read_apply]
  show (V m c main_arg8 : S400x400.Idx → EReal) _ = _
  congr 1
  funext a
  apply Fin.ext
  match a with
  | ⟨0, _⟩ => show win0_8.index t (0 : Fin 2) * 400 + 1 * (y 0).val = (y 0).val; rw [e0]; omega
  | ⟨1, _⟩ => show win0_8.index t (1 : Fin 2) * 400 + 1 * (y 1).val = (y 1).val; rw [e1]; omega

/-- Window 9's block is the whole array at every point. -/
theorem blk9_eq (c : Dev nD) (t : Fin cfg0.N) : (iblk m c 9 t : S400.Idx → EReal) = V m c main_arg9 := by
  have e0 := idx9 t
  funext y
  unfold iblk
  rw [View.read_apply]
  show (V m c main_arg9 : S400.Idx → EReal) _ = _
  congr 1
  funext a
  apply Fin.ext
  match a with
  | ⟨0, _⟩ => show win0_9.index t (0 : Fin 1) * 400 + 1 * (y 0).val = (y 0).val; rw [e0]; omega

/-- Window 10's block is the whole array at every point. -/
theorem blk10_eq (c : Dev nD) (t : Fin cfg0.N) : (iblk m c 10 t : S401x1.Idx → EReal) = V m c main_arg10 := by
  obtain ⟨e0, e1⟩ := idx10 t
  funext y
  unfold iblk
  rw [View.read_apply]
  show (V m c main_arg10 : S401x1.Idx → EReal) _ = _
  congr 1
  funext a
  apply Fin.ext
  match a with
  | ⟨0, _⟩ => show win0_10.index t (0 : Fin 2) * 401 + 1 * (y 0).val = (y 0).val; rw [e0]; omega
  | ⟨1, _⟩ => show win0_10.index t (1 : Fin 2) * 1 + 1 * (y 1).val = (y 1).val; rw [e1]; omega

/-- Window 11's block is the whole array at every point. -/
theorem blk11_eq (c : Dev nD) (t : Fin cfg0.N) : (iblk m c 11 t : S1.Idx → EReal) = V m c main_arg11 := by
  have e0 := idx11 t
  funext y
  unfold iblk
  rw [View.read_apply]
  show (V m c main_arg11 : S1.Idx → EReal) _ = _
  congr 1
  funext a
  apply Fin.ext
  match a with
  | ⟨0, _⟩ => show win0_11.index t (0 : Fin 1) * 1 + 1 * (y 0).val = (y 0).val; rw [e0]; omega

/-! ## One point -/

/-- What the body stores at a point whose batch blocks are rows 2048·T … of arrays `X`, `Ef`, `Sc`, read at block
    index `y`, is `DeepFM.G` of those arrays at the array index `i` on row 2048·T + y₀. -/
theorem point_eq (X : S16384x13.Idx → EReal) (E : S16384x26x16.Idx → EReal) (Ef : S16384x416.Idx → EReal)
    (Sc : S16384x1.Idx → EReal) (wc : S13x1.Idx → EReal) (bc : S1.Idx → EReal) (w1 : S429x400.Idx → EReal)
    (b1 : S400.Idx → EReal) (w2 : S400x400.Idx → EReal) (b2 : S400.Idx → EReal) (wo : S401x1.Idx → EReal) (bo : S1.Idx → EReal)
    (hE : ∀ (b : Fin 16384) (f : Fin 26) (d : Fin 16), Ef (ix2 b (flat f d)) = E (ix3 b f d))
    (x0 : FVec Ideal S2048x13 .f32) (x1 : FVec Ideal S2048x416 .f32) (x2 : FVec Ideal S2048x1 .f32)
    (x3 : FVec Ideal S416x16 .f32) (x4 : FVec Ideal S13x1 .f32) (x5 : FVec Ideal S1 .f32) (x6 : FVec Ideal S429x400 .f32)
    (x7 : FVec Ideal S400 .f32) (x8 : FVec Ideal S400x400 .f32) (x9 : FVec Ideal S400 .f32) (x10 : FVec Ideal S401x1 .f32)
    (x11 : FVec Ideal S1 .f32)
    (hsel : ∀ (j : Fin 416) (d : Fin 16), x3 (ix2 j d) = if compOf j = d then (1 : EReal) else 0)
    (T : Nat) (hT : T ≤ 7)
    (h0 : ∀ (r : Fin 2048) (k : Fin 13), x0 (ix2 r k) = X (ix2 ⟨T * 2048 + r.val, by have := r.isLt; omega⟩ k))
    (h1 : ∀ (r : Fin 2048) (j : Fin 416), x1 (ix2 r j) = Ef (ix2 ⟨T * 2048 + r.val, by have := r.isLt; omega⟩ j))
    (h2 : ∀ (r : Fin 2048), x2 (ix2 r (0 : Fin 1)) = Sc (ix2 ⟨T * 2048 + r.val, by have := r.isLt; omega⟩ (0 : Fin 1)))
    (h4 : x4 = wc) (h5 : x5 = bc) (h6 : x6 = w1) (h7 : x7 = b1) (h8 : x8 = w2) (h9 : x9 = b2) (h10 : x10 = wo) (h11 : x11 = bo)
    (y : S2048x1.Idx) (i : S16384x1.Idx) (hi0 : (i 0).val = T * 2048 + (y 0).val) :
    k0_pay1 (F := Ideal) x0 (k0_pay3 x0 x1 x6 x7 x8 x9) (k0_pay4 x1 x3) (k0_pay5 x2) x4 x5 x10 x11 y
      = G X E Sc wc bc w1 b1 w2 b2 wo bo i := by
  subst h4 h5 h6 h7 h8 h9 h10 h11
  obtain ⟨r, rfl⟩ : ∃ r : Fin 2048, y = ix2 r (0 : Fin 1) := ⟨⟨(y 0).val, idx2_lt0 y⟩, eq_col y⟩
  refine (KBody.pay_apply x0 x1 x2 x3 x4 x5 x6 x7 x8 x9 x10 x11 hsel r).trans ?_
  have hb : (⟨(i 0).val, idx2_lt0 i⟩ : Fin 16384) = ⟨T * 2048 + r.val, by have := r.isLt; omega⟩ := Fin.ext hi0
  have ea : (fun k => x0 (ix2 r k)) = fun k => X (ix2 ⟨(i 0).val, idx2_lt0 i⟩ k) := by
    rw [hb]; exact funext fun k => h0 r k
  have eb : (fun f d => x1 (ix2 r (flat f d))) = fun f d => E (ix3 ⟨(i 0).val, idx2_lt0 i⟩ f d) := by
    rw [hb]; exact funext fun f => funext fun d => (h1 r (flat f d)).trans (hE _ f d)
  have ec : x2 (ix2 r (0 : Fin 1)) = Sc (ix2 ⟨(i 0).val, idx2_lt0 i⟩ (0 : Fin 1)) := by
    rw [hb]; exact h2 r
  rw [ea, eb, ec]
  rfl

/-! ## Every point, and the cover -/

/-- The result array as the launch's arrays determine it. -/
abbrev GV (c : Dev nD) (E : S16384x26x16.Idx → EReal) : S16384x1.Idx → EReal :=
  G (V m c main_arg0) E (V m c main_v18) (V m c main_arg2) (V m c main_arg3) (V m c main_arg6) (V m c main_arg7)
    (V m c main_arg8) (V m c main_arg9) (V m c main_arg10) (V m c main_arg11)

/-- What point `t` writes back is block `t` of `GV`. -/
theorem flushed_eq (c : Dev nD) (E : S16384x26x16.Idx → EReal)
    (hE : ∀ (b : Fin 16384) (f : Fin 26) (d : Fin 16), (V m c main_v35 : S16384x416.Idx → EReal) (ix2 b (flat f d)) = E (ix3 b f d))
    (hsel : ∀ (j : Fin 416) (d : Fin 16), (V m c main_v44 : S416x16.Idx → EReal) (ix2 j d) = if compOf j = d then (1 : EReal) else 0)
    (t : Fin cfg0.N) :
    (dats m 0 c).flushed 12 t = ((cfg0.win 12).blk t).view.read (Elt Ideal) (GV m c E) := by
  rw [flushed12]
  unfold out0_12
  rw [View.canon_unit_zero hz2]
  simp only [View.ld_unit_zero (S := S2048x13) hz2, View.ld_unit_zero (S := S2048x416) hz2, View.ld_unit_zero (S := S429x400) hz2,
    View.ld_unit_zero (S := S400) hz1, View.ld_unit_zero (S := S400x400) hz2, View.ld_unit_zero (S := S416x16) hz2,
    View.ld_unit_zero (S := S2048x1) hz2, View.ld_unit_zero (S := S13x1) hz2, View.ld_unit_zero (S := S1) hz1,
    View.ld_unit_zero (S := S401x1) hz2]
  funext y
  rw [View.read_apply]
  have h8 : cfg0.N = 8 := N_0
  have ht := t.isLt
  obtain ⟨o0, o1⟩ := idx12 t
  refine point_eq (V m c main_arg0) E (V m c main_v35) (V m c main_v18) (V m c main_arg2) (V m c main_arg3) (V m c main_arg6)
    (V m c main_arg7) (V m c main_arg8) (V m c main_arg9) (V m c main_arg10) (V m c main_arg11) hE
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (fun j d => (congrFun (blk3_eq m c t) (ix2 j d)).trans (hsel j d)) t.val (by omega)
    (fun r k => blk0_apply m c t r k) (fun r j => blk1_apply m c t r j) (fun r => blk2_apply m c t r 0)
    (blk4_eq m c t) (blk5_eq m c t) (blk6_eq m c t) (blk7_eq m c t) (blk8_eq m c t) (blk9_eq m c t) (blk10_eq m c t) (blk11_eq m c t)
    y _ ?_
  show win0_12.index t (0 : Fin 2) * 2048 + 1 * (y 0).val = t.val * 2048 + (y 0).val
  rw [o0]; omega

/-- An index whose row lies in rows 2048·t … 2048·t + 2047 is in the result window's block at point `t`. -/
theorem mem_blk (t : Fin cfg0.N) (i : S16384x1.Idx) (h : t.val * 2048 ≤ (i 0).val ∧ (i 0).val < t.val * 2048 + 2048) :
    i ∈ ((cfg0.win 12).blk t).view.set := by
  have hi1 : (i 1).val < 1 := idx2_lt1 i
  obtain ⟨o0, o1⟩ := idx12 t
  show i ∈ ((View.whole main_v45).slice (win0_12.rect t)).set
  rw [View.set_slice_whole, Rect.mem_set_unit]
  intro a
  match a with
  | ⟨0, _⟩ =>
    show win0_12.index t (0 : Fin 2) * 2048 ≤ (i 0).val ∧ (i 0).val < win0_12.index t (0 : Fin 2) * 2048 + 2048
    rw [o0]
    exact h
  | ⟨1, _⟩ =>
    show win0_12.index t (1 : Fin 2) * 1 ≤ (i 1).val ∧ (i 1).val < win0_12.index t (1 : Fin 2) * 1 + 1
    rw [o1]
    omega

/-- Every row of the result lies in the block of the point `row / 2048`. -/
theorem cover (i : S16384x1.Idx) : ∃ t : Fin cfg0.N, (cfg0.win 12).flush t = true ∧ i ∈ ((cfg0.win 12).blk t).view.set := by
  have h8 : cfg0.N = 8 := N_0
  have hi0 : (i 0).val < 16384 := idx2_lt0 i
  refine ⟨⟨(i 0).val / 2048, by omega⟩, flush0_12 _, mem_blk _ i ?_⟩
  show (i 0).val / 2048 * 2048 ≤ (i 0).val ∧ (i 0).val < (i 0).val / 2048 * 2048 + 2048
  omega

/-- The result array after the launch. -/
theorem final_of (c : Dev nD) (E : S16384x26x16.Idx → EReal)
    (hE : ∀ (b : Fin 16384) (f : Fin 26) (d : Fin 16), (V m c main_v35 : S16384x416.Idx → EReal) (ix2 b (flat f d)) = E (ix3 b f d))
    (hsel : ∀ (j : Fin 416) (d : Fin 16), (V m c main_v44 : S416x16.Idx → EReal) (ix2 j d) = if compOf j = d then (1 : EReal) else 0) :
    (dats m 0 c).arrAt 12 cfg0.N = GV m c E :=
  (dats m 0 c).arrAt_eq_of_cover 12 (GV m c E) (fun t _ => flushed_eq m c E hE hsel t) cover

end DeepFM.KBlocks

end
-- ==== Proof.KernelHost.lean ====
/-
  The three arrays the kernel's launch reads that its own host code computes before the launch.

  Two of them come out of the table look-ups, by exactly the operations the reference program applies: the
  embeddings flattened to [16384, 416] (the reference's `val_main_v50`) and the summed first-order weights as a
  column (the reference's `val_main_v22`). They are stated as those very terms, so that the look-ups are never
  opened.

  The third is the 0/1 selector [416, 16]: the 16 x 16 identity (an equality test of two iotas, turned into a
  float), given a unit axis twice, repeated 26 times along a new leading axis and flattened; its entry (j, d) is
  one exactly when `j % 16 = d`.
-/
import proofs.«407073_j10368051052905_3_alg».proof.Proof.Gen.KernelIdeal.Frame
import proofs.«407073_j10368051052905_3_alg».proof.Proof.Gen.ReferenceIdeal.Read
import proofs.«407073_j10368051052905_3_alg».proof.Proof.Spec
import Idealize.ShloMosaic.Lib.Pipeline.Value
import Idealize.ShloMosaic.Lib.ValueIdx
import Idealize.ShloMosaic.Lib.StableHlo.Run
import Idealize.ShloMosaic.Lib.StableHlo.Predicate
import Idealize.ShloMosaic.Lib.Pipeline.Regions

noncomputable section

namespace DeepFM.KHost

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The flattened embeddings the launch reads are the reference's flattened embeddings of the same arguments. -/
theorem V_eflat (c : Dev nD) :
    (V m c main_v35 : S16384x416.Idx → EReal)
      = Cert.ReferenceIdeal.Read.val_main_v50 (F := Ideal) (m ((c : Thread nD τ).loc main_arg1)) (m ((c : Thread nD τ).loc main_arg5)) := by
  -- run the line of host operations into one term of the two arguments …
  dsimp only [V, hostOps0]
  after_results_simp
  -- … which is the reference's term, operation for operation: the same functions of the same literals, the shape
  -- records of the two programs having equal data (their proof fields do not matter)
  chain_rfl

/-- The column of summed first-order weights the launch reads is the reference's, of the same arguments. -/
theorem V_first (c : Dev nD) :
    (V m c main_v18 : S16384x1.Idx → EReal)
      = Cert.ReferenceIdeal.Read.val_main_v22 (F := Ideal) (m ((c : Thread nD τ).loc main_arg1)) (m ((c : Thread nD τ).loc main_arg4)) := by
  -- run the line of host operations into one term of the two arguments …
  dsimp only [V, hostOps0]
  after_results_simp
  -- … which is the reference's term, operation for operation: the same functions of the same literals, the shape
  -- records of the two programs having equal data (their proof fields do not matter)
  chain_rfl

/-- Two numbers below 16 are equal exactly when the 32-bit word of the first, plus the zero word, is the word of the
    second: below 2^32 a number is recovered from its word. -/
theorem word_add_zero_eq_iff (a b : Nat) (ha : a < 16) (hb : b < 16) :
    IntOp.cmpi .eq (IntOp.addi (BitVec.ofNat 32 a) 0#32) (BitVec.ofNat 32 b) = 1#1 ↔ a = b := by
  rw [StableHlo.Predicate.cmpi_eq_iff]
  show BitVec.ofNat 32 a + 0#32 = BitVec.ofNat 32 b ↔ a = b
  rw [BitVec.add_zero]
  constructor
  · intro h
    have h' := congrArg BitVec.toNat h
    rw [BitVec.toNat_ofNat, BitVec.toNat_ofNat] at h'
    omega
  · intro h; rw [h]

/-- The selector's entry (j, d) is one when position `j` of a flattened row holds component `d`, else zero. -/
theorem V_sel (c : Dev nD) (j : Fin 416) (d : Fin 16) :
    (V m c main_v44 : S416x16.Idx → EReal) (ix2 j d) = if DeepFM.compOf j = d then (1 : EReal) else 0 := by
  have hj := j.isLt
  have hd := d.isLt
  dsimp only [V, hostOps0]
  after_results
  show shapeCast S416x16 (broadcastInDim S26x16x1x16 ![0, 1, 2, 3] bcast_S1x16x1x16_S26x16x1x16_0_1_2_3
      (shapeCast S1x16x1x16 (uitofp (F := Ideal) FTy.f32 (cmpi CmpIPredicate.eq
        (addi (iotaInDim S16x16 32 0) (broadcastInDim S16x16 ![] bcast_S_S16x16 (constantI S_ 32 0#32)))
        (iotaInDim S16x16 32 1))) shapeCasts_S16x16_S1x16x1x16)) shapeCasts_S26x16x1x16_S416x16 (ix2 j d) = _
  -- row-major position j·16 + d of [26, 16, 1, 16] is (j / 16, j % 16, 0, d)
  refine (shapeCast_apply _ shapeCasts_S26x16x1x16_S416x16 (ix2 j d)
    (ix4 (⟨j.val / 16, by omega⟩ : Fin 26) (⟨j.val % 16, Nat.mod_lt _ (by decide)⟩ : Fin 16) (0 : Fin 1) d) ?_).trans ?_
  · rw [Shape.rowMajor_val_four, Shape.rowMajor_val_two]
    show ((j.val / 16 * 16 + j.val % 16) * 1 + 0) * 16 + d.val = j.val * 16 + d.val
    omega
  -- the 26 copies along the leading axis all read copy 0
  refine (broadcastInDim_apply _ bcast_S1x16x1x16_S26x16x1x16_0_1_2_3 _ _
    (ix4 (0 : Fin 1) (⟨j.val % 16, Nat.mod_lt _ (by decide)⟩ : Fin 16) (0 : Fin 1) d) (fun a => match a with
      | ⟨0, _⟩ => by show (0 : Nat) = if (1 : Nat) = 1 then 0 else j.val / 16; rw [if_pos rfl]
      | ⟨1, _⟩ => by show j.val % 16 = if (16 : Nat) = 1 then 0 else j.val % 16; rw [if_neg (by decide)]
      | ⟨2, _⟩ => by show (0 : Nat) = if (1 : Nat) = 1 then 0 else 0; rw [if_pos rfl]
      | ⟨3, _⟩ => by show d.val = if (16 : Nat) = 1 then 0 else d.val; rw [if_neg (by decide)])).trans ?_
  -- the two unit axes go away: (0, j % 16, 0, d) of [1, 16, 1, 16] is (j % 16, d) of [16, 16]
  refine (shapeCast_apply _ shapeCasts_S16x16_S1x16x1x16 _
    (ix2 (⟨j.val % 16, Nat.mod_lt _ (by decide)⟩ : Fin 16) d) ?_).trans ?_
  · rw [Shape.rowMajor_val_four, Shape.rowMajor_val_two]
    show j.val % 16 * 16 + d.val = ((0 * 16 + j.val % 16) * 1 + 0) * 16 + d.val
    omega
  -- the entry of the 16 x 16 identity: is the word of j % 16 (plus the zero word) the word of d?
  show FloatOps.uitofp (F := Ideal) FTy.f32
      (IntOp.cmpi CmpIPredicate.eq (IntOp.addi (BitVec.ofNat 32 (j.val % 16)) 0#32) (BitVec.ofNat 32 d.val)) = _
  by_cases h : DeepFM.compOf j = d
  · have hv : j.val % 16 = d.val := congrArg Fin.val h
    rw [if_pos h, (word_add_zero_eq_iff _ _ (Nat.mod_lt _ (by decide)) hd).mpr hv]
    show (((1 : Nat) : ℝ) : EReal) = 1
    rw [Nat.cast_one, EReal.coe_one]
  · have hv : ¬ j.val % 16 = d.val := fun e => h (Fin.ext e)
    rw [if_neg h, eq_zero_of_ne_one fun h1 => hv ((word_add_zero_eq_iff _ _ (Nat.mod_lt _ (by decide)) hd).mp h1)]
    show (((0 : Nat) : ℝ) : EReal) = 0
    rw [Nat.cast_zero, EReal.coe_zero]

end DeepFM.KHost

end
-- ==== Proof.KernelFinal.lean ====
/-
  The kernel program's run, read: its result array is `DeepFM.G` of the arguments and of the reference's own two
  looked-up arrays.

  The launch's three host-made inputs are supplied here: the flattened embeddings are the reference's looked-up
  embeddings [16384,26,16] in row-major order, so position (b, 16 f + d) holds entry (b, f, d) (the quotient and
  remainders of b·416 + 16 f + d by 416, 16 and 26 are b, f and d); the selector is the 0/1 matrix of `j % 16 = d`;
  the column of summed first-order weights is the reference's. The arguments the launch reads are as launched.
-/
import proofs.«407073_j10368051052905_3_alg».proof.Proof.Gen.KernelIdeal.Value
import proofs.«407073_j10368051052905_3_alg».proof.Proof.Gen.ReferenceIdeal.Read
import proofs.«407073_j10368051052905_3_alg».proof.Proof.Spec
import proofs.«407073_j10368051052905_3_alg».proof.Proof.KernelBlocks
import proofs.«407073_j10368051052905_3_alg».proof.Proof.KernelHost
import Idealize.ShloMosaic.Lib.Pipeline.Value
import Idealize.ShloMosaic.Lib.ValueIdx

noncomputable section

namespace DeepFM.KFinal

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ) (ρ : Dev nD → PrngReg)

/-- Position (b, 16 f + d) of the flattened embeddings holds the looked-up embedding entry (b, f, d). -/
theorem eflat_apply (c : Dev nD) (b : Fin 16384) (f : Fin 26) (d : Fin 16) :
    (V m c main_v35 : S16384x416.Idx → EReal) (ix2 b (flat f d))
      = Cert.ReferenceIdeal.Read.val_main_v39 (F := Ideal) (m ((c : Thread nD τ).loc main_arg1)) (m ((c : Thread nD τ).loc main_arg5)) (ix3 b f d) := by
  rw [KHost.V_eflat, Cert.ReferenceIdeal.Read.val_main_v50_apply]
  refine congrArg _ (funext fun a => Fin.ext ?_)
  have hb := b.isLt
  have hf := f.isLt
  have hd := d.isLt
  match a with
  | ⟨0, _⟩ => show (b.val * 416 + (f.val * 16 + d.val)) / 416 = b.val; omega
  | ⟨1, _⟩ => show (b.val * 416 + (f.val * 16 + d.val)) / 16 % 26 = f.val; omega
  | ⟨2, _⟩ => show (b.val * 416 + (f.val * 16 + d.val)) % 16 = d.val; omega

/-- The kernel program's result array, as a function of its arguments. -/
abbrev result (c : Dev nD) : S16384x1.Idx → EReal :=
  G (m ((c : Thread nD τ).loc main_arg0))
    (Cert.ReferenceIdeal.Read.val_main_v39 (F := Ideal) (m ((c : Thread nD τ).loc main_arg1)) (m ((c : Thread nD τ).loc main_arg5)))
    (Cert.ReferenceIdeal.Read.val_main_v22 (F := Ideal) (m ((c : Thread nD τ).loc main_arg1)) (m ((c : Thread nD τ).loc main_arg4)))
    (m ((c : Thread nD τ).loc main_arg2)) (m ((c : Thread nD τ).loc main_arg3)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The result array after the launch is `result`. -/
theorem final (c : Dev nD) : (dats m 0 c).arrAt 12 cfg0.N = result m c := by
  rw [KBlocks.final_of m c _ (eflat_apply m c) (KHost.V_sel m c)]
  show G (V m c main_arg0) _ (V m c main_v18) (V m c main_arg2) (V m c main_arg3) (V m c main_arg6) (V m c main_arg7)
    (V m c main_arg8) (V m c main_arg9) (V m c main_arg10) (V m c main_arg11) = _
  rw [V_main_arg0, V_main_arg2, V_main_arg3, V_main_arg6, V_main_arg7, V_main_arg8, V_main_arg9, V_main_arg10, V_main_arg11,
    KHost.V_first]

/-- Every weakly fair execution of the kernel program ends with the result array at `result`, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (run_blocks m ρ)

end DeepFM.KFinal

end
-- ==== Proof.lean ====
/-
  A DeepFM forward pass, kernel against reference, over the extended reals.

  Both programs look up the same two embedding tables with the same index arithmetic and then compute, for each of
  the 16384 batch rows, a first-order term, the factorization machine's pairwise term, a two-layer relu network on
  [features | embeddings], and one output unit over [first + pairwise | hidden] (`Proof/Spec.lean`: `DeepFM.G`).
  They differ in three ways, none of which changes an extended real: the kernel narrows the network's operands to
  bf16 before each product (a change of format is the identity here); it takes the sums over the 26 fields by
  multiplying the flattened row with a 0/1 selector matrix (`a · 1 = a`, `a · 0 = 0` for every extended real, so
  the product is the sum); and it adds the three first-order summands in another order. It also works on eight
  blocks of 2048 rows, which tile the batch.

  `Proof/RefSide.lean` reads the reference's run as `G`; `Proof/KernelBody.lean` reads one launch of the body at
  a row; `Proof/KernelHost.lean` reads the three arrays the kernel's host code prepares; `Proof/KernelBlocks.lean`
  and `Proof/KernelFinal.lean` put the eight blocks together. The three frames are the generated frame runs (the
  reference's is its generated run with the result dropped); nothing was rewritten by the idealization, so there
  is nothing to preserve; the equivalence sets the two runs side by side at the same `G`.
-/
import proofs.«407073_j10368051052905_3_alg».proof.Defs
import proofs.«407073_j10368051052905_3_alg».proof.Proof.Gen.Kernel
import proofs.«407073_j10368051052905_3_alg».proof.Proof.Gen.Kernel.Skeleton
import proofs.«407073_j10368051052905_3_alg».proof.Proof.Gen.Kernel.Launch
import proofs.«407073_j10368051052905_3_alg».proof.Proof.Gen.Kernel.Points
import proofs.«407073_j10368051052905_3_alg».proof.Proof.Gen.Kernel.Frame
import proofs.«407073_j10368051052905_3_alg».proof.Proof.Gen.KernelIdeal
import proofs.«407073_j10368051052905_3_alg».proof.Proof.Gen.KernelIdeal.Skeleton
import proofs.«407073_j10368051052905_3_alg».proof.Proof.Gen.KernelIdeal.Launch
import proofs.«407073_j10368051052905_3_alg».proof.Proof.Gen.KernelIdeal.Points
import proofs.«407073_j10368051052905_3_alg».proof.Proof.Gen.KernelIdeal.Frame
import proofs.«407073_j10368051052905_3_alg».proof.Proof.Gen.ReferenceIdeal
import proofs.«407073_j10368051052905_3_alg».proof.Proof.Gen.Pre_finite_inputs
import proofs.«407073_j10368051052905_3_alg».proof.Proof.Gen.KernelIdeal.Value
import proofs.«407073_j10368051052905_3_alg».proof.Proof.Gen.ReferenceIdeal.Run
import proofs.«407073_j10368051052905_3_alg».proof.Proof.Gen.ReferenceIdeal.Read
import proofs.«407073_j10368051052905_3_alg».proof.Proof.Spec
import proofs.«407073_j10368051052905_3_alg».proof.Proof.RefSide
import proofs.«407073_j10368051052905_3_alg».proof.Proof.KernelFinal
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `DeepFM.G` of the arguments in their result
    arrays: the kernel by its eight blocks, the reference by its run read operation by operation. -/
theorem algebraic : Cert.algebraic_KernelIdeal_ReferenceIdeal := by
  intro m ρ m' ρ' _ hagree
  refine ⟨fun c => DeepFM.KFinal.result m c, DeepFM.KFinal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v66_eq, DeepFM.Ref.ref_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
